-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2x512x512 : Shape := ⟨4, ![32, 2, 512, 512]⟩
abbrev S_ : Shape := ⟨0, ![]⟩

class Facts : Prop where
  bcast_S_S32x2x512x512 : S_.BroadcastsInDim S32x2x512x512 (![] : Fin 0 → Fin S32x2x512x512.rank)
  reducesTo_S32x2x512x512_S_d0_1_2_3 : S32x2x512x512.ReducesTo [0, 1, 2, 3] S_
  h_S_ : 0 < S_.numel

variable [Facts]

def fn {F : FTy → Type} [FloatOps F] (main_arg0 : FVec F S32x2x512x512 .f32) (main_arg1 : FVec F S32x2x512x512 .f32) : IVec S_ 1 :=
  let main_v0 : FVec F S32x2x512x512 .f32 := Host.absf main_arg0
  let main_cst : FVec F S_ .f32 := constant S_ .f32 0x7F800000#32
  let main_v1 : FVec F S32x2x512x512 .f32 := broadcastInDim S32x2x512x512 ![] bcast_S_S32x2x512x512 main_cst
  let main_v2 : IVec S32x2x512x512 1 := cmpf .olt main_v0 main_v1
  let main_c : IVec S_ 1 := constantI S_ 1 1#1
  let main_v3 : IVec S_ 1 := (fun x v => Host.reduce IntOp.andi x v reducesTo_S32x2x512x512_S_d0_1_2_3 h_S_) main_v2 main_c
  let main_v4 : FVec F S32x2x512x512 .f32 := Host.absf main_arg1
  let main_cst_0 : FVec F S_ .f32 := constant S_ .f32 0x7F800000#32
  let main_v5 : FVec F S32x2x512x512 .f32 := broadcastInDim S32x2x512x512 ![] bcast_S_S32x2x512x512 main_cst_0
  let main_v6 : IVec S32x2x512x512 1 := cmpf .olt main_v4 main_v5
  let main_c_1 : IVec S_ 1 := constantI S_ 1 1#1
  let main_v7 : IVec S_ 1 := (fun x v => Host.reduce IntOp.andi x v reducesTo_S32x2x512x512_S_d0_1_2_3 h_S_) main_v6 main_c_1
  let main_v8 : IVec S_ 1 := andi main_v3 main_v7
  main_v8
-- ==== Kernel.lean ====
abbrev S32x2x512x512 : Shape := ⟨4, ![32, 2, 512, 512]⟩
abbrev S32x8x128 : Shape := ⟨3, ![32, 8, 128]⟩
abbrev S1x1x128x512 : Shape := ⟨4, ![1, 1, 128, 512]⟩
abbrev S1x8x128 : Shape := ⟨3, ![1, 8, 128]⟩
abbrev S32x32 : Shape := ⟨2, ![32, 32]⟩
abbrev S32x1 : Shape := ⟨2, ![32, 1]⟩
abbrev S128x512 : Shape := ⟨2, ![128, 512]⟩
abbrev S1x512 : Shape := ⟨2, ![1, 512]⟩
abbrev S32x512 : Shape := ⟨2, ![32, 512]⟩
abbrev S1x32x32 : Shape := ⟨3, ![1, 32, 32]⟩
abbrev S1 : Shape := ⟨1, ![1]⟩
abbrev S1x1x1 : Shape := ⟨3, ![1, 1, 1]⟩
abbrev S32 : Shape := ⟨1, ![32]⟩
abbrev S1x32 : Shape := ⟨2, ![1, 32]⟩
abbrev S8x128 : Shape := ⟨2, ![8, 128]⟩
abbrev S32x1x1 : Shape := ⟨3, ![32, 1, 1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S32x2x512x512, .f32⟩
  | .hbm, ⟨1, _⟩ => ⟨S32x2x512x512, .f32⟩
  | .hbm, ⟨2, _⟩ => ⟨S32x8x128, .f32⟩
  | .hbm, ⟨3, _⟩ => ⟨S32x1x1, .f32⟩
  | .hbm, ⟨4, _⟩ => ⟨S32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x1x128x512, .f32⟩
  | .local _ .vmem, ⟨1, _⟩ => ⟨S1x1x128x512, .f32⟩
  | .local _ .vmem, ⟨2, _⟩ => ⟨S1x1x128x512, .f32⟩
  | .local _ .vmem, ⟨3, _⟩ => ⟨S1x1x128x512, .f32⟩
  | .local _ .vmem, ⟨4, _⟩ => ⟨S1x8x128, .f32⟩
  | .local _ .vmem, ⟨5, _⟩ => ⟨S1x8x128, .f32⟩
  | .local _ .vmem, ⟨6, _⟩ => ⟨S32x32, .f32⟩
  | _, _ => ⟨S32x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 2, 4], ![false, false, false]⟩

def k0_cond2 (i : grid0.Coords) : BitVec 1 :=
  let arg1 : BitVec 32 := BitVec.ofNat 32 (i 1).val
  let c1_i32 : BitVec 32 := 1#32
  let v7184 : BitVec 1 := Scalar.cmpi .eq arg1 c1_i32
  let arg2 : BitVec 32 := BitVec.ofNat 32 (i 2).val
  let c3_i32 : BitVec 32 := 3#32
  let v7185 : BitVec 1 := Scalar.cmpi .eq arg2 c3_i32
  let v7186 : BitVec 1 := Scalar.andi v7184 v7185
  let v7187 : BitVec 32 := Scalar.extui v7186
  let c0_i32_1932 : BitVec 32 := 0#32
  let v7188 : BitVec 1 := Scalar.cmpi .ne v7187 c0_i32_1932
  v7188

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S32x32_S32x32_0_0 : ∀ a, (![0, 0] : Fin 2 → Nat) a + S32x32.size a ≤ S32x32.size a
  h_S32x32 : 0 < S32x32.numel
  shapeCasts_S32x32_S32x32 : S32x32.ShapeCasts S32x32
  iota_S32x1_d0_w32 : S32x1.Iotas .tc 32 [0]
  inb_S1x1x128x512_S1x1x128x512_0_0_0_0 : ∀ a, (![0, 0, 0, 0] : Fin 4 → Nat) a + S1x1x128x512.size a ≤ S1x1x128x512.size a
  h_S1x1x128x512 : 0 < S1x1x128x512.numel
  shapeCasts_S1x1x128x512_S128x512 : S1x1x128x512.ShapeCasts S128x512
  slices_S128x512_o0_0_S1x512 : S128x512.Slices ![0, 0] S1x512
  natLt_1_32 : 1 < 32
  broadcasts_S32x1_S32x512 : S32x1.Broadcasts S32x512
  broadcasts_S1x512_S32x512 : S1x512.Broadcasts S32x512
  bitsLt_bf16_f32 : FTy.bits .bf16 < FTy.bits .f32
  slices_S128x512_o1_0_S1x512 : S128x512.Slices ![1, 0] S1x512
  slices_S128x512_o2_0_S1x512 : S128x512.Slices ![2, 0] S1x512
  slices_S128x512_o3_0_S1x512 : S128x512.Slices ![3, 0] S1x512
  slices_S128x512_o4_0_S1x512 : S128x512.Slices ![4, 0] S1x512
  slices_S128x512_o5_0_S1x512 : S128x512.Slices ![5, 0] S1x512
  slices_S128x512_o6_0_S1x512 : S128x512.Slices ![6, 0] S1x512
  slices_S128x512_o7_0_S1x512 : S128x512.Slices ![7, 0] S1x512
  slices_S128x512_o8_0_S1x512 : S128x512.Slices ![8, 0] S1x512
  slices_S128x512_o9_0_S1x512 : S128x512.Slices ![9, 0] S1x512
  slices_S128x512_o10_0_S1x512 : S128x512.Slices ![10, 0] S1x512
  slices_S128x512_o11_0_S1x512 : S128x512.Slices ![11, 0] S1x512
  slices_S128x512_o12_0_S1x512 : S128x512.Slices ![12, 0] S1x512
  slices_S128x512_o13_0_S1x512 : S128x512.Slices ![13, 0] S1x512
  slices_S128x512_o14_0_S1x512 : S128x512.Slices ![14, 0] S1x512
  slices_S128x512_o15_0_S1x512 : S128x512.Slices ![15, 0] S1x512
  slices_S128x512_o16_0_S1x512 : S128x512.Slices ![16, 0] S1x512
  slices_S128x512_o17_0_S1x512 : S128x512.Slices ![17, 0] S1x512
  slices_S128x512_o18_0_S1x512 : S128x512.Slices ![18, 0] S1x512
  slices_S128x512_o19_0_S1x512 : S128x512.Slices ![19, 0] S1x512
  slices_S128x512_o20_0_S1x512 : S128x512.Slices ![20, 0] S1x512
  slices_S128x512_o21_0_S1x512 : S128x512.Slices ![21, 0] S1x512
  slices_S128x512_o22_0_S1x512 : S128x512.Slices ![22, 0] S1x512
  slices_S128x512_o23_0_S1x512 : S128x512.Slices ![23, 0] S1x512
  slices_S128x512_o24_0_S1x512 : S128x512.Slices ![24, 0] S1x512
  slices_S128x512_o25_0_S1x512 : S128x512.Slices ![25, 0] S1x512
  slices_S128x512_o26_0_S1x512 : S128x512.Slices ![26, 0] S1x512
  slices_S128x512_o27_0_S1x512 : S128x512.Slices ![27, 0] S1x512
  slices_S128x512_o28_0_S1x512 : S128x512.Slices ![28, 0] S1x512
  slices_S128x512_o29_0_S1x512 : S128x512.Slices ![29, 0] S1x512
  slices_S128x512_o30_0_S1x512 : S128x512.Slices ![30, 0] S1x512
  slices_S128x512_o31_0_S1x512 : S128x512.Slices ![31, 0] S1x512
  slices_S128x512_o32_0_S1x512 : S128x512.Slices ![32, 0] S1x512
  slices_S128x512_o33_0_S1x512 : S128x512.Slices ![33, 0] S1x512
  slices_S128x512_o34_0_S1x512 : S128x512.Slices ![34, 0] S1x512
  slices_S128x512_o35_0_S1x512 : S128x512.Slices ![35, 0] S1x512
  slices_S128x512_o36_0_S1x512 : S128x512.Slices ![36, 0] S1x512
  slices_S128x512_o37_0_S1x512 : S128x512.Slices ![37, 0] S1x512
  slices_S128x512_o38_0_S1x512 : S128x512.Slices ![38, 0] S1x512
  slices_S128x512_o39_0_S1x512 : S128x512.Slices ![39, 0] S1x512
  slices_S128x512_o40_0_S1x512 : S128x512.Slices ![40, 0] S1x512
  slices_S128x512_o41_0_S1x512 : S128x512.Slices ![41, 0] S1x512
  slices_S128x512_o42_0_S1x512 : S128x512.Slices ![42, 0] S1x512
  slices_S128x512_o43_0_S1x512 : S128x512.Slices ![43, 0] S1x512
  slices_S128x512_o44_0_S1x512 : S128x512.Slices ![44, 0] S1x512
  slices_S128x512_o45_0_S1x512 : S128x512.Slices ![45, 0] S1x512
  slices_S128x512_o46_0_S1x512 : S128x512.Slices ![46, 0] S1x512
  slices_S128x512_o47_0_S1x512 : S128x512.Slices ![47, 0] S1x512
  slices_S128x512_o48_0_S1x512 : S128x512.Slices ![48, 0] S1x512
  slices_S128x512_o49_0_S1x512 : S128x512.Slices ![49, 0] S1x512
  slices_S128x512_o50_0_S1x512 : S128x512.Slices ![50, 0] S1x512
  slices_S128x512_o51_0_S1x512 : S128x512.Slices ![51, 0] S1x512
  slices_S128x512_o52_0_S1x512 : S128x512.Slices ![52, 0] S1x512
  slices_S128x512_o53_0_S1x512 : S128x512.Slices ![53, 0] S1x512
  slices_S128x512_o54_0_S1x512 : S128x512.Slices ![54, 0] S1x512
  slices_S128x512_o55_0_S1x512 : S128x512.Slices ![55, 0] S1x512
  slices_S128x512_o56_0_S1x512 : S128x512.Slices ![56, 0] S1x512
  slices_S128x512_o57_0_S1x512 : S128x512.Slices ![57, 0] S1x512
  slices_S128x512_o58_0_S1x512 : S128x512.Slices ![58, 0] S1x512
  slices_S128x512_o59_0_S1x512 : S128x512.Slices ![59, 0] S1x512
  slices_S128x512_o60_0_S1x512 : S128x512.Slices ![60, 0] S1x512
  slices_S128x512_o61_0_S1x512 : S128x512.Slices ![61, 0] S1x512
  slices_S128x512_o62_0_S1x512 : S128x512.Slices ![62, 0] S1x512
  slices_S128x512_o63_0_S1x512 : S128x512.Slices ![63, 0] S1x512
  slices_S128x512_o64_0_S1x512 : S128x512.Slices ![64, 0] S1x512
  slices_S128x512_o65_0_S1x512 : S128x512.Slices ![65, 0] S1x512
  slices_S128x512_o66_0_S1x512 : S128x512.Slices ![66, 0] S1x512
  slices_S128x512_o67_0_S1x512 : S128x512.Slices ![67, 0] S1x512
  slices_S128x512_o68_0_S1x512 : S128x512.Slices ![68, 0] S1x512
  slices_S128x512_o69_0_S1x512 : S128x512.Slices ![69, 0] S1x512
  slices_S128x512_o70_0_S1x512 : S128x512.Slices ![70, 0] S1x512
  slices_S128x512_o71_0_S1x512 : S128x512.Slices ![71, 0] S1x512
  slices_S128x512_o72_0_S1x512 : S128x512.Slices ![72, 0] S1x512
  slices_S128x512_o73_0_S1x512 : S128x512.Slices ![73, 0] S1x512
  slices_S128x512_o74_0_S1x512 : S128x512.Slices ![74, 0] S1x512
  slices_S128x512_o75_0_S1x512 : S128x512.Slices ![75, 0] S1x512
  slices_S128x512_o76_0_S1x512 : S128x512.Slices ![76, 0] S1x512
  slices_S128x512_o77_0_S1x512 : S128x512.Slices ![77, 0] S1x512
  slices_S128x512_o78_0_S1x512 : S128x512.Slices ![78, 0] S1x512
  slices_S128x512_o79_0_S1x512 : S128x512.Slices ![79, 0] S1x512
  slices_S128x512_o80_0_S1x512 : S128x512.Slices ![80, 0] S1x512
  slices_S128x512_o81_0_S1x512 : S128x512.Slices ![81, 0] S1x512
  slices_S128x512_o82_0_S1x512 : S128x512.Slices ![82, 0] S1x512
  slices_S128x512_o83_0_S1x512 : S128x512.Slices ![83, 0] S1x512
  slices_S128x512_o84_0_S1x512 : S128x512.Slices ![84, 0] S1x512
  slices_S128x512_o85_0_S1x512 : S128x512.Slices ![85, 0] S1x512
  slices_S128x512_o86_0_S1x512 : S128x512.Slices ![86, 0] S1x512
  slices_S128x512_o87_0_S1x512 : S128x512.Slices ![87, 0] S1x512
  slices_S128x512_o88_0_S1x512 : S128x512.Slices ![88, 0] S1x512
  slices_S128x512_o89_0_S1x512 : S128x512.Slices ![89, 0] S1x512
  slices_S128x512_o90_0_S1x512 : S128x512.Slices ![90, 0] S1x512
  slices_S128x512_o91_0_S1x512 : S128x512.Slices ![91, 0] S1x512
  slices_S128x512_o92_0_S1x512 : S128x512.Slices ![92, 0] S1x512
  slices_S128x512_o93_0_S1x512 : S128x512.Slices ![93, 0] S1x512
  slices_S128x512_o94_0_S1x512 : S128x512.Slices ![94, 0] S1x512
  slices_S128x512_o95_0_S1x512 : S128x512.Slices ![95, 0] S1x512
  slices_S128x512_o96_0_S1x512 : S128x512.Slices ![96, 0] S1x512
  slices_S128x512_o97_0_S1x512 : S128x512.Slices ![97, 0] S1x512
  slices_S128x512_o98_0_S1x512 : S128x512.Slices ![98, 0] S1x512
  slices_S128x512_o99_0_S1x512 : S128x512.Slices ![99, 0] S1x512
  slices_S128x512_o100_0_S1x512 : S128x512.Slices ![100, 0] S1x512
  slices_S128x512_o101_0_S1x512 : S128x512.Slices ![101, 0] S1x512
  slices_S128x512_o102_0_S1x512 : S128x512.Slices ![102, 0] S1x512
  slices_S128x512_o103_0_S1x512 : S128x512.Slices ![103, 0] S1x512
  slices_S128x512_o104_0_S1x512 : S128x512.Slices ![104, 0] S1x512
  slices_S128x512_o105_0_S1x512 : S128x512.Slices ![105, 0] S1x512
  slices_S128x512_o106_0_S1x512 : S128x512.Slices ![106, 0] S1x512
  slices_S128x512_o107_0_S1x512 : S128x512.Slices ![107, 0] S1x512
  slices_S128x512_o108_0_S1x512 : S128x512.Slices ![108, 0] S1x512
  slices_S128x512_o109_0_S1x512 : S128x512.Slices ![109, 0] S1x512
  slices_S128x512_o110_0_S1x512 : S128x512.Slices ![110, 0] S1x512
  slices_S128x512_o111_0_S1x512 : S128x512.Slices ![111, 0] S1x512
  slices_S128x512_o112_0_S1x512 : S128x512.Slices ![112, 0] S1x512
  slices_S128x512_o113_0_S1x512 : S128x512.Slices ![113, 0] S1x512
  slices_S128x512_o114_0_S1x512 : S128x512.Slices ![114, 0] S1x512
  slices_S128x512_o115_0_S1x512 : S128x512.Slices ![115, 0] S1x512
  slices_S128x512_o116_0_S1x512 : S128x512.Slices ![116, 0] S1x512
  slices_S128x512_o117_0_S1x512 : S128x512.Slices ![117, 0] S1x512
  slices_S128x512_o118_0_S1x512 : S128x512.Slices ![118, 0] S1x512
  slices_S128x512_o119_0_S1x512 : S128x512.Slices ![119, 0] S1x512
  slices_S128x512_o120_0_S1x512 : S128x512.Slices ![120, 0] S1x512
  slices_S128x512_o121_0_S1x512 : S128x512.Slices ![121, 0] S1x512
  slices_S128x512_o122_0_S1x512 : S128x512.Slices ![122, 0] S1x512
  slices_S128x512_o123_0_S1x512 : S128x512.Slices ![123, 0] S1x512
  slices_S128x512_o124_0_S1x512 : S128x512.Slices ![124, 0] S1x512
  slices_S128x512_o125_0_S1x512 : S128x512.Slices ![125, 0] S1x512
  slices_S128x512_o126_0_S1x512 : S128x512.Slices ![126, 0] S1x512
  slices_S128x512_o127_0_S1x512 : S128x512.Slices ![127, 0] S1x512
  shapeCasts_S32x32_S1x32x32 : S32x32.ShapeCasts S1x32x32
  reduces_S1x32x32_S1 : S1x32x32.Reduces [1, 2] S1
  shapeCasts_S1_S1x1x1 : S1.ShapeCasts S1x1x1
  inpos_S1x1x1_p0_0_0 : ∀ a, (![0, 0, 0] : Fin 3 → Nat) a < S1x1x1.size a
  reduces_S32x32_S32 : S32x32.Reduces [1] S32
  shapeCasts_S32_S32x1 : S32.ShapeCasts S32x1
  reduces_S32x32_S32_2 : S32x32.Reduces [0] S32
  shapeCasts_S32_S1x32 : S32.ShapeCasts S1x32
  broadcasts_S32x1_S32x32 : S32x1.Broadcasts S32x32
  broadcasts_S1x32_S32x32 : S1x32.Broadcasts S32x32
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  dot_S32x512_S32x512_S32x32_1_1_0_0_n_n_wf : DotDims.WF S32x512 S32x512 S32x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x512.size a ≤ S32x2x512x512.size a
  hwx0_0 : ∀ i : grid0.Coords, EltTy.bits .f32 = 32 ∨ (Rect.block (s := S32x2x512x512) S1x1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x512.size a ≤ S32x2x512x512.size a
  hwx0_1 : ∀ i : grid0.Coords, EltTy.bits .f32 = 32 ∨ (Rect.block (s := S32x2x512x512) S1x1x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S32x8x128.size a
  hwx0_2 : ∀ i : grid0.Coords, EltTy.bits .f32 = 32 ∨ (Rect.block (s := S32x8x128) S1x8x128.size (cc0_transform_2 i) (hinb0_2 i)).WholeWords (EltTy.packing .f32)

variable [Facts₀]

def dot_S32x512_S32x512_S32x32_1_1_0_0_n_n : DotDims S32x512 S32x512 S32x32 where
  lhsContracting := [1]
  rhsContracting := [1]
  lhsNonContracting := [0]
  rhsNonContracting := [0]
  lhsBatch := []
  rhsBatch := []
  wf := dot_S32x512_S32x512_S32x32_1_1_0_0_n_n_wf

abbrev win0_0 : Pipeline.Window sig grid0 :=
  Pipeline.Window.ofSpec (Memref.whole main_arg0) S1x1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x2x512x512 : Shape := ⟨4, ![32, 2, 512, 512]⟩
abbrev S32x524288 : Shape := ⟨2, ![32, 524288]⟩
abbrev S_ : Shape := ⟨0, ![]⟩
abbrev S32 : Shape := ⟨1, ![32]⟩
abbrev S32x1 : Shape := ⟨2, ![32, 1]⟩
abbrev S16777216 : Shape := ⟨1, ![16777216]⟩
abbrev S32768 : Shape := ⟨1, ![32768]⟩
abbrev S16777216x1 : Shape := ⟨2, ![16777216, 1]⟩
abbrev S32x32x32 : Shape := ⟨3, ![32, 32, 32]⟩
abbrev S32x1x1 : Shape := ⟨3, ![32, 1, 1]⟩
abbrev S32x32 : Shape := ⟨2, ![32, 32]⟩
abbrev S32x32x1 : Shape := ⟨3, ![32, 32, 1]⟩
abbrev S32x1x32 : Shape := ⟨3, ![32, 1, 32]⟩

abbrev nBuf : Space → Nat
  | .hbm => 115
  | .vmem => 0
  | .smem => 0
  | _ => 0

abbrev bufTy : (tb : Table) → Fin (tcTables nBuf tb) → BufTy
  | .hbm, ⟨0, _⟩ => ⟨S32x2x512x512, .f32⟩
  | .hbm, ⟨1, _⟩ => ⟨S32x2x512x512, .f32⟩
  | .hbm, ⟨2, _⟩ => ⟨S32x524288, .f32⟩
  | .hbm, ⟨3, _⟩ => ⟨S_, .f32⟩
  | .hbm, ⟨4, _⟩ => ⟨S32x524288, .f32⟩
  | .hbm, ⟨5, _⟩ => ⟨S32x524288, .f32⟩
  | .hbm, ⟨6, _⟩ => ⟨S_, .f32⟩
  | .hbm, ⟨7, _⟩ => ⟨S32x524288, .f32⟩
  | .hbm, ⟨8, _⟩ => ⟨S32x524288, .f32⟩
  | .hbm, ⟨9, _⟩ => ⟨S32x524288, .f32⟩
  | .hbm, ⟨10, _⟩ => ⟨S_, .f32⟩
  | .hbm, ⟨11, _⟩ => ⟨S32x524288, .f32⟩
  | .hbm, ⟨12, _⟩ => ⟨S32x524288, .f32⟩
  | .hbm, ⟨13, _⟩ => ⟨S_, .f32⟩
  | .hbm, ⟨14, _⟩ => ⟨S32x524288, .f32⟩
  | .hbm, ⟨15, _⟩ => ⟨S32x524288, .f32⟩
  | .hbm, ⟨16, _⟩ => ⟨S_, .f32⟩
  | .hbm, ⟨17, _⟩ => ⟨S32x524288, .f32⟩
  | .hbm, ⟨18, _⟩ => ⟨S32x524288, .i1⟩
  | .hbm, ⟨19, _⟩ => ⟨S_, .f32⟩
  | .hbm, ⟨20, _⟩ => ⟨S32x524288, .f32⟩
  | .hbm, ⟨21, _⟩ => ⟨S32x524288, .i1⟩
  | .hbm, ⟨22, _⟩ => ⟨S32x524288, .i1⟩
  | .hbm, ⟨23, _⟩ => ⟨S_, .f32⟩
  | .hbm, ⟨24, _⟩ => ⟨S32x524288, .f32⟩
  | .hbm, ⟨25, _⟩ => ⟨S32x524288, .i1⟩
  | .hbm, ⟨26, _⟩ => ⟨S32x524288, .i1⟩
  | .hbm, ⟨27, _⟩ => ⟨S_, .f32⟩
  | .hbm, ⟨28, _⟩ => ⟨S32x524288, .f32⟩
  | .hbm, ⟨29, _⟩ => ⟨S32x524288, .i1⟩
  | .hbm, ⟨30, _⟩ => ⟨S32x524288, .i1⟩
  | .hbm, ⟨31, _⟩ => ⟨S32x524288, .f32⟩
  | .hbm, ⟨32, _⟩ => ⟨S_, .f32⟩
  | .hbm, ⟨33, _⟩ => ⟨S32x524288, .f32⟩
  | .hbm, ⟨34, _⟩ => ⟨S32x524288, .f32⟩
  | .hbm, ⟨35, _⟩ => ⟨S32x524288, .f32⟩
  | .hbm, ⟨36, _⟩ => ⟨S32x524288, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S32x524288, .i32⟩
  | .hbm, ⟨41, _⟩ => ⟨S32x524288, .i32⟩
  | .hbm, ⟨42, _⟩ => ⟨S_, .i32⟩
  | .hbm, ⟨43, _⟩ => ⟨S32x524288, .i32⟩
  | .hbm, ⟨44, _⟩ => ⟨S32x524288, .i32⟩
  | .hbm, ⟨45, _⟩ => ⟨S_, .f32⟩
  | .hbm, ⟨46, _⟩ => ⟨S32x524288, .f32⟩
  | .hbm, ⟨47, _⟩ => ⟨S32x524288, .f32⟩
  | .hbm, ⟨48, _⟩ => ⟨S32x524288, .f32⟩
  | .hbm, ⟨49, _⟩ => ⟨S32x524288, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S32x524288, .i32⟩
  | .hbm, ⟨54, _⟩ => ⟨S32x524288, .i32⟩
  | .hbm, ⟨55, _⟩ => ⟨S_, .i32⟩
  | .hbm, ⟨56, _⟩ => ⟨S32x524288, .i32⟩
  | .hbm, ⟨57, _⟩ => ⟨S32x524288, .i32⟩
  | .hbm, ⟨58, _⟩ => ⟨S32, .i32⟩
  | .hbm, ⟨59, _⟩ => ⟨S32x1, .i32⟩
  | .hbm, ⟨60, _⟩ => ⟨S_, .i32⟩
  | .hbm, ⟨61, _⟩ => ⟨S32x1, .i32⟩
  | .hbm, ⟨62, _⟩ => ⟨S32x1, .i32⟩
  | .hbm, ⟨63, _⟩ => ⟨S_, .i32⟩
  | .hbm, ⟨64, _⟩ => ⟨S32x524288, .i32⟩
  | .hbm, ⟨65, _⟩ => ⟨S32x524288, .i32⟩
  | .hbm, ⟨66, _⟩ => ⟨S32x524288, .i32⟩
  | .hbm, ⟨67, _⟩ => ⟨S32x524288, .i32⟩
  | .hbm, ⟨68, _⟩ => ⟨S32x524288, .i32⟩
  | .hbm, ⟨69, _⟩ => ⟨S16777216, .i32⟩
  | .hbm, ⟨70, _⟩ => ⟨S16777216, .f32⟩
  | .hbm, ⟨71, _⟩ => ⟨S_, .f32⟩
  | .hbm, ⟨72, _⟩ => ⟨S32768, .f32⟩
  | .hbm, ⟨73, _⟩ => ⟨S16777216x1, .i32⟩
  | .hbm, ⟨74, _⟩ => ⟨S32768, .f32⟩
  | .hbm, ⟨75, _⟩ => ⟨S32x32x32, .f32⟩
  | .hbm, ⟨76, _⟩ => ⟨S_, .f32⟩
  | .hbm, ⟨77, _⟩ => ⟨S32, .f32⟩
  | .hbm, ⟨78, _⟩ => ⟨S32x1x1, .f32⟩
  | .hbm, ⟨79, _⟩ => ⟨S32x32x32, .f32⟩
  | .hbm, ⟨80, _⟩ => ⟨S32x32x32, .f32⟩
  | .hbm, ⟨81, _⟩ => ⟨S_, .f32⟩
  | .hbm, ⟨82, _⟩ => ⟨S32x32, .f32⟩
  | .hbm, ⟨83, _⟩ => ⟨S_, .f32⟩
  | .hbm, ⟨84, _⟩ => ⟨S32x32, .f32⟩
  | .hbm, ⟨85, _⟩ => ⟨S32x32x1, .f32⟩
  | .hbm, ⟨86, _⟩ => ⟨S32x1x32, .f32⟩
  | .hbm, ⟨87, _⟩ => ⟨S32x32x32, .f32⟩
  | .hbm, ⟨88, _⟩ => ⟨S32x32x32, .f32⟩
  | .hbm, ⟨89, _⟩ => ⟨S32x32x32, .f32⟩
  | .hbm, ⟨90, _⟩ => ⟨S_, .f32⟩
  | .hbm, ⟨91, _⟩ => ⟨S32x32x32, .f32⟩
  | .hbm, ⟨92, _⟩ => ⟨S32x32x32, .i1⟩
  | .hbm, ⟨93, _⟩ => ⟨S_, .f32⟩
  | .hbm, ⟨94, _⟩ => ⟨S_, .f32⟩
  | .hbm, ⟨95, _⟩ => ⟨S32x32x32, .f32⟩
  | .hbm, ⟨96, _⟩ => ⟨S32x32x32, .f32⟩
  | .hbm, ⟨97, _⟩ => ⟨S32x32x32, .f32⟩
  | .hbm, ⟨98, _⟩ => ⟨S_, .f32⟩
  | .hbm, ⟨99, _⟩ => ⟨S_, .f32⟩
  | .hbm, ⟨100, _⟩ => ⟨S32x32x32, .f32⟩
  | .hbm, ⟨101, _⟩ => ⟨S32x32x32, .f32⟩
  | .hbm, ⟨102, _⟩ => ⟨S32x32x32, .f32⟩
  | .hbm, ⟨103, _⟩ => ⟨S32x32x32, .f32⟩
  | .hbm, ⟨104, _⟩ => ⟨S_, .f32⟩
  | .hbm, ⟨105, _⟩ => ⟨S_, .f32⟩
  | .hbm, ⟨106, _⟩ => ⟨S32x32x32, .f32⟩
  | .hbm, ⟨107, _⟩ => ⟨S32x32x32, .f32⟩
  | .hbm, ⟨108, _⟩ => ⟨S_, .f32⟩
  | .hbm, ⟨109, _⟩ => ⟨S32, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S32x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_c_8 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_10 : Ref sig .tc := ⟨.hbm, 50, rfl⟩
abbrev main_c_11 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_12 : Ref sig .tc := ⟨.hbm, 60, rfl⟩
abbrev main_v34 : Ref sig .tc := ⟨.hbm, 61, rfl⟩
abbrev main_v35 : Ref sig .tc := ⟨.hbm, 62, rfl⟩
abbrev main_c_13 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_14 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_15 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_16 : Ref sig .tc := ⟨.hbm, 81, rfl⟩
abbrev main_v51 : Ref sig .tc := ⟨.hbm, 82, rfl⟩
abbrev main_cst_17 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_18 : Ref sig .tc := ⟨.hbm, 90, rfl⟩
abbrev main_v58 : Ref sig .tc := ⟨.hbm, 91, rfl⟩
abbrev main_v59 : Ref sig .tc := ⟨.hbm, 92, rfl⟩
abbrev main_cst_19 : Ref sig .tc := ⟨.hbm, 93, rfl⟩
abbrev main_call2_v0 : Ref sig .tc := ⟨.hbm, 94, rfl⟩
abbrev main_call2_v1 : Ref sig .tc := ⟨.hbm, 95, rfl⟩
abbrev main_v60 : Ref sig .tc := ⟨.hbm, 96, rfl⟩
abbrev main_v61 : Ref sig .tc := ⟨.hbm, 97, rfl⟩
abbrev main_cst_20 : Ref sig .tc := ⟨.hbm, 98, rfl⟩
abbrev main_call3_v0 : Ref sig .tc := ⟨.hbm, 99, rfl⟩
abbrev main_call3_v1 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_21 : Ref sig .tc := ⟨.hbm, 104, rfl⟩
abbrev main_call4_v0 : Ref sig .tc := ⟨.hbm, 105, rfl⟩
abbrev main_call4_v1 : Ref sig .tc := ⟨.hbm, 106, rfl⟩
abbrev main_v65 : Ref sig .tc := ⟨.hbm, 107, rfl⟩
abbrev main_cst_22 : Ref sig .tc := ⟨.hbm, 108, rfl⟩
abbrev main_v66 : Ref sig .tc := ⟨.hbm, 109, rfl⟩
abbrev main_cst_23 : Ref sig .tc := ⟨.hbm, 110, rfl⟩
abbrev main_v67 : Ref sig .tc := ⟨.hbm, 111, rfl⟩
abbrev main_cst_24 : Ref sig .tc := ⟨.hbm, 112, rfl⟩
abbrev main_v68 : Ref sig .tc := ⟨.hbm, 113, rfl⟩
abbrev main_v69 : Ref sig .tc := ⟨.hbm, 114, rfl⟩

abbrev nD : Nat := 1
abbrev τ : Topo := Topo.v7x

variable {F : FTy → Type} [FloatOps F]

class Facts₀ : Prop where
  shapeCasts_S32x2x512x512_S32x524288 : S32x2x512x512.ShapeCasts S32x524288
  bcast_S_S32x524288 : S_.BroadcastsInDim S32x524288 (![] : Fin 0 → Fin S32x524288.rank)
  bcast_S32_S32x1_0 : S32.BroadcastsInDim S32x1 (![0] : Fin 1 → Fin S32x1.rank)
  bcast_S_S32x1 : S_.BroadcastsInDim S32x1 (![] : Fin 0 → Fin S32x1.rank)
  bcast_S32x1_S32x524288_0_1 : S32x1.BroadcastsInDim S32x524288 (![0, 1] : Fin 2 → Fin S32x524288.rank)
  shapeCasts_S32x524288_S16777216 : S32x524288.ShapeCasts S16777216
  bcast_S_S32768 : S_.BroadcastsInDim S32768 (![] : Fin 0 → Fin S32768.rank)
  bcast_S16777216_S16777216x1_0 : S16777216.BroadcastsInDim S16777216x1 (![0] : Fin 1 → Fin S16777216x1.rank)
  shapeCasts_S32768_S32x32x32 : S32768.ShapeCasts S32x32x32
  reducesTo_S32x32x32_S32_d1_2 : S32x32x32.ReducesTo [1, 2] S32
  h_S_ : 0 < S_.numel
  bcast_S32_S32x1x1_0 : S32.BroadcastsInDim S32x1x1 (![0] : Fin 1 → Fin S32x1x1.rank)
  bcast_S32x1x1_S32x32x32_0_1_2 : S32x1x1.BroadcastsInDim S32x32x32 (![0, 1, 2] : Fin 3 → Fin S32x32x32.rank)
  reducesTo_S32x32x32_S32x32_d2 : S32x32x32.ReducesTo [2] S32x32
  reducesTo_S32x32x32_S32x32_d1 : S32x32x32.ReducesTo [1] S32x32
  bcast_S32x32_S32x32x1_0_1 : S32x32.BroadcastsInDim S32x32x1 (![0, 1] : Fin 2 → Fin S32x32x1.rank)
  bcast_S32x32_S32x1x32_0_2 : S32x32.BroadcastsInDim S32x1x32 (![0, 2] : Fin 2 → Fin S32x1x32.rank)
  bcast_S32x32x1_S32x32x32_0_1_2 : S32x32x1.BroadcastsInDim S32x32x32 (![0, 1, 2] : Fin 3 → Fin S32x32x32.rank)
  bcast_S32x1x32_S32x32x32_0_1_2 : S32x1x32.BroadcastsInDim S32x32x32 (![0, 1, 2] : Fin 3 → Fin S32x32x32.rank)
  bcast_S_S32x32x32 : S_.BroadcastsInDim S32x32x32 (![] : Fin 0 → Fin S32x32x32.rank)
  reducesTo_S32_S_d0 : S32.ReducesTo [0] S_
  scatter_S32768_S16777216x1_S16777216_n_0_0_1_wf : ScatterDims.WF S32768 S16777216x1 S16777216 [] [0] [0] 1

variable [Facts₀]

def scatter_S32768_S16777216x1_S16777216_n_0_0_1 : ScatterDims S32768 S16777216x1 S16777216 where
  updateWindowDims := []
  insertedWindowDims := [0]
  scatterDimsToOperandDims := [0]
  indexVectorDim := 1
  wf := scatter_S32768_S16777216x1_S16777216_n_0_0_1_wf

class Facts : Prop extends Facts₀ where

variable [Facts]
-- ==== Proof.Spec.lean ====
/-
  The mathematics both programs compute, stated once over the extended reals.

  A pixel pair (x, y) is mapped to u = (x + 1) · 0.5 and v = (y + 1) · 0.5; it counts (weight 1) when both lie
  in [0, 1] and not at all (weight 0) otherwise, and its bins are clamp (⌊32 u⌋, 0, 31) and clamp (⌊32 v⌋, 0, 31).
  The joint histogram of a sample is the sum of the weights of its pixels, bin pair by bin pair; the mutual
  information is read off the normalised histogram, and the result is minus the mean over the 32 samples.
-/
import Idealize.ShloMosaic.PureOps.Ideal
import Idealize.ShloMosaic.Lib.ValueIdx

noncomputable section

open scoped BigOperators

namespace Cert.Hist

open Idealize.ShloMosaic Idealize.ShloMosaic.ValueIdx

/-- The shape of one image batch: 32 samples, 2 channels, 512 x 512 pixels. -/
abbrev SImg : Shape := ⟨4, ![32, 2, 512, 512]⟩

/-- The scaled coordinate of a pixel value: (x + 1) · 0.5. -/
def coord (x : EReal) : EReal := (x + Ideal.ofBits .f32 0x3F800000#32) * Ideal.ofBits .f32 0x3F000000#32

/-- One bit: both scaled coordinates lie in [0, 1]. -/
def inRange (u v : EReal) : BitVec 1 :=
  IntOp.andi (IntOp.andi (IntOp.andi (Ideal.cmp .oge u (Ideal.ofBits .f32 0x00000000#32)) (Ideal.cmp .ole u (Ideal.ofBits .f32 0x3F800000#32)))
    (Ideal.cmp .oge v (Ideal.ofBits .f32 0x00000000#32))) (Ideal.cmp .ole v (Ideal.ofBits .f32 0x3F800000#32))

/-- A one-bit word as a number, 0 or 1: widened to 32 bits and converted. -/
def bit01 (b : BitVec 1) : EReal := FloatOps.sitofp (F := Ideal) .f32 (b.setWidth 32)

/-- The bin of a scaled coordinate: ⌊32 u⌋ as a 32-bit integer, clamped to [0, 31]. -/
def bin (u : EReal) : BitVec 32 :=
  IntOp.minsi 31#32 (IntOp.maxsi 0#32 (FloatOps.fptosi (F := Ideal) (φ := .f32) 32 (FloatOps.floor (F := Ideal) (φ := .f32) (u * Ideal.ofBits .f32 0x42000000#32))))

/-- What the pixel pair (x, y) adds to the bin pair (i, j): its weight if x falls in bin i and y in bin j, else 0. -/
def cell (x y : EReal) (i j : Fin 32) : EReal :=
  (bit01 (IntOp.cmpi .eq (BitVec.ofNat 32 i.val) (bin (coord x))) * bit01 (inRange (coord x) (coord y)))
    * bit01 (IntOp.cmpi .eq (BitVec.ofNat 32 j.val) (bin (coord y)))

/-- The joint histogram of sample b: every pixel pair of its 2 channels of 512 x 512 pixels, summed bin pair by bin pair. -/
def hist (X Y : SImg.Idx → EReal) (b i j : Fin 32) : EReal :=
  ∑ c : Fin 2, ∑ h : Fin 512, ∑ l : Fin 512, cell (X (ix4 b c h l)) (Y (ix4 b c h l)) i j

/-- The normalised histogram p = H / ΣH. -/
def pmf (H : Fin 32 → Fin 32 → EReal) (i j : Fin 32) : EReal := Ideal.div (H i j) (∑ i', ∑ j', H i' j')

/-- The mutual information of a histogram: Σ p log (p / (px py)) over the cells with p > 0, px and py the marginals. -/
def mi (H : Fin 32 → Fin 32 → EReal) : EReal :=
  ∑ i, ∑ j,
    Scalar.select (Ideal.cmp .ogt (pmf H i j) (Ideal.ofBits .f32 0x00000000#32))
      (pmf H i j * Ideal.log
        (Scalar.select (Ideal.cmp .ogt (pmf H i j) (Ideal.ofBits .f32 0x00000000#32))
          (Ideal.div (pmf H i j)
            (Scalar.select (Ideal.cmp .ogt (pmf H i j) (Ideal.ofBits .f32 0x00000000#32))
              ((∑ j', pmf H i j') * (∑ i', pmf H i' j)) (Ideal.ofBits .f32 0x3F800000#32)))
          (Ideal.ofBits .f32 0x3F800000#32)))
      (Ideal.ofBits .f32 0x00000000#32)

/-- Minus the mean of the 32 samples' mutual information. -/
def result (X Y : SImg.Idx → EReal) : EReal :=
  -(Ideal.div (∑ b, mi (hist X Y b)) (Ideal.ofBits .f32 0x42000000#32))

end Cert.Hist

end
-- ==== Proof.CellDecode.lean ====
/-
  Three scalar facts joining one pixel pair's reading in the reference to the specification's:
  a division by 2 is the product with 0.5; a one-bit word converts to 0 or 1 whichever way it is read;
  and the flat bin index 1024 b' + 32 bin(x) + bin(y) names the cell (b, i, j) exactly when the three digits agree.
-/
import proofs.«107822_j38654705664143_1_alg».proof.Proof.Spec
import Idealize.ShloMosaic.PureOps.Ideal

noncomputable section

namespace Cert.Hist.Decode

open Idealize.ShloMosaic Cert.Hist

/-- The pattern 0x40000000 denotes 2. -/
theorem ofBits_two : Ideal.ofBits .f32 0x40000000#32 = ((2 : ℝ) : EReal) := by
  simp [Ideal.ofBits, Ideal.ieee, -EReal.coe_mul]; norm_num

/-- The pattern 0x3F000000 denotes 1/2. -/
theorem ofBits_half : Ideal.ofBits .f32 0x3F000000#32 = ((1 / 2 : ℝ) : EReal) := by
  simp [Ideal.ofBits, Ideal.ieee, -EReal.coe_mul]; norm_num

/-- the host's (x + 1) / 2 is the kernel's (x + 1) · 0.5 on every extended real -/
theorem coord_div (x : EReal) :
    Ideal.div (x + Ideal.ofBits .f32 0x3F800000#32) (Ideal.ofBits .f32 0x40000000#32) = coord x := by
  rw [ofBits_two, Ideal.div_coe (by norm_num), coord, ofBits_half]

/-- The one-bit word 1 is the number 1. -/
theorem bit01_one : bit01 1#1 = 1 := by
  show ((((1#1 : BitVec 1).setWidth 32).toInt : ℝ) : EReal) = 1
  have : ((1#1 : BitVec 1).setWidth 32).toInt = 1 := by decide
  rw [this]; norm_num

/-- The one-bit word 0 is the number 0. -/
theorem bit01_zero : bit01 0#1 = 0 := by
  show ((((0#1 : BitVec 1).setWidth 32).toInt : ℝ) : EReal) = 0
  have : ((0#1 : BitVec 1).setWidth 32).toInt = 0 := by decide
  rw [this]; norm_num

/-- an unsigned convert of a one-bit word is the signed convert of its 32-bit widening: 0 or 1 -/
theorem uitofp_bit (b : BitVec 1) : FloatOps.uitofp (F := Ideal) .f32 b = bit01 b := by
  show ((b.toNat : ℝ) : EReal) = (((b.setWidth 32).toInt : ℝ) : EReal)
  have h : (b.setWidth 32).toInt = (b.toNat : ℤ) := by
    rcases BitVec.eq_zero_or_eq_one b with rfl | rfl <;> decide
  rw [h]; push_cast; rfl

/-- A 32-bit word clamped to [0, 31] as a signed number is one of the 32 words 0, …, 31. -/
theorem clamp_fin (w : BitVec 32) :
    ∃ k : Fin 32, IntOp.minsi 31#32 (IntOp.maxsi 0#32 w) = BitVec.ofNat 32 k.val := by
  unfold IntOp.minsi IntOp.maxsi
  by_cases h0 : w.slt 0#32
  · exact ⟨0, by simp [h0]⟩
  · by_cases h1 : (31#32).slt w
    · exact ⟨31, by simp [h0, h1]⟩
    · have hw : w.toNat < 32 := by
        simp only [BitVec.slt, decide_eq_true_eq, not_lt] at h0 h1
        have e0 : (0#32 : BitVec 32).toInt = 0 := by decide
        have e1 : (31#32 : BitVec 32).toInt = 31 := by decide
        rw [e0] at h0; rw [e1] at h1
        rw [BitVec.toInt_eq_toNat_cond] at h0 h1
        have := w.isLt
        split at h0 <;> omega
      refine ⟨⟨w.toNat, hw⟩, ?_⟩
      simp [h0, h1]

/-- Every bin is one of the 32 words 0, …, 31. -/
theorem bin_fin (u : EReal) : ∃ k : Fin 32, bin u = BitVec.ofNat 32 k.val := clamp_fin _

/-- Comparing two of the words 0, …, 31 for equality gives 1 when they are the same number and 0 otherwise. -/
theorem bit01_cmpi_eq (a c : Fin 32) :
    bit01 (IntOp.cmpi .eq (BitVec.ofNat 32 a.val) (BitVec.ofNat 32 c.val)) = if a = c then 1 else 0 := by
  by_cases h : a = c
  · subst h
    have : IntOp.cmpi .eq (BitVec.ofNat 32 a.val) (BitVec.ofNat 32 a.val) = 1#1 := by simp [IntOp.cmpi]
    rw [this, bit01_one, if_pos rfl]
  · have hne : BitVec.ofNat 32 a.val ≠ BitVec.ofNat 32 c.val := by
      intro e
      have := congrArg BitVec.toNat e
      simp only [BitVec.toNat_ofNat] at this
      have ha := a.isLt; have hc := c.isLt
      apply h; apply Fin.ext; omega
    have : IntOp.cmpi .eq (BitVec.ofNat 32 a.val) (BitVec.ofNat 32 c.val) = 0#1 := by
      have hb : (BitVec.ofNat 32 a.val == BitVec.ofNat 32 c.val) = false := beq_eq_false_iff_ne.mpr hne
      simp only [IntOp.cmpi, hb]; rfl
    rw [this, bit01_zero, if_neg h]

/-- The flat index of three digits below 32, computed in 32-bit words and read signed, is the number itself. -/
theorem flat_toInt (b' p q : Fin 32) :
    (IntOp.addi (IntOp.addi (IntOp.muli (BitVec.ofNat 32 b'.val) 1024#32) (IntOp.muli (BitVec.ofNat 32 p.val) 32#32))
        (BitVec.ofNat 32 q.val)).toInt = ((b'.val * 1024 + p.val * 32 + q.val : ℕ) : ℤ) := by
  have hb := b'.isLt; have hp := p.isLt; have hq := q.isLt
  simp only [IntOp.addi, IntOp.muli]
  rw [BitVec.toInt_eq_toNat_cond]
  simp only [BitVec.toNat_add, BitVec.toNat_mul, BitVec.toNat_ofNat]
  split <;> omega

/-- the flat bin index 1024 b' + 32 bin(x) + bin(y), computed in 32-bit words and read signed, names the cell (b, i, j)
    exactly when b' = b, bin(x) = i and bin(y) = j; so selecting the weight on it is the cell's contribution -/
theorem cell_eq_flat (x y : EReal) (b b' i j : Fin 32) :
    (if (IntOp.addi (IntOp.addi (IntOp.muli (BitVec.ofNat 32 b'.val) 1024#32) (IntOp.muli (bin (coord x)) 32#32)) (bin (coord y))).toInt
          = ((b.val * 1024 + i.val * 32 + j.val : ℕ) : ℤ)
      then bit01 (inRange (coord x) (coord y)) else 0)
    = if b' = b then cell x y i j else 0 := by
  obtain ⟨p, hp⟩ := bin_fin (coord x)
  obtain ⟨q, hq⟩ := bin_fin (coord y)
  unfold cell
  rw [hp, hq, flat_toInt, bit01_cmpi_eq, bit01_cmpi_eq]
  have key : (((b'.val * 1024 + p.val * 32 + q.val : ℕ) : ℤ) = ((b.val * 1024 + i.val * 32 + j.val : ℕ) : ℤ))
      ↔ (b' = b ∧ i = p ∧ j = q) := by
    have h1 := b.isLt; have h2 := b'.isLt; have h3 := i.isLt; have h4 := j.isLt
    have h5 := p.isLt; have h6 := q.isLt
    simp only [Fin.ext_iff]
    omega
  rw [if_congr key rfl rfl]
  by_cases hb : b' = b
  · by_cases hi : i = p
    · by_cases hj : j = q
      · simp [hb, hi, hj]
      · simp [hb, hi, hj]
    · simp [hb, hi]
  · simp [hb]

end Cert.Hist.Decode
-- ==== Proof.RefHist.lean ====
/-
  The reference's joint histogram, read at a sample and a bin pair, is the specification's: the scatter-add
  of the in-range weights on the flat bin indices regroups, pixel by pixel, into the sum of the cells.
-/
import proofs.«107822_j38654705664143_1_alg».proof.Proof.RefRead
import proofs.«107822_j38654705664143_1_alg».proof.Proof.Spec
import proofs.«107822_j38654705664143_1_alg».proof.Proof.CellDecode
import Mathlib.Algebra.BigOperators.Group.Finset.Basic
import Mathlib.Data.Fintype.BigOperators
import Mathlib.Logic.Equiv.Defs

noncomputable section

open scoped BigOperators

namespace Cert.ReferenceIdeal.RefHist

open Idealize.ShloMosaic Idealize.ShloMosaic.ValueIdx Cert.ReferenceIdeal Cert.ReferenceIdeal.Gen Cert.ReferenceIdeal.Read Cert.Hist

/-- The weight of the pixel at a flat position: one when both scaled coordinates lie in [0, 1]. -/
theorem weight_read (x0 x1 : (⟨S32x2x512x512, .f32⟩ : BufTy).Contents (Elt Ideal)) (p : S32x524288.Idx) :
    val_main_v21 (F := Ideal) x0 x1 p
      = bit01 (inRange (coord (x0 (idx_main_v0 p))) (coord (x1 (idx_main_v5 p)))) := by
  rw [val_main_v21_apply, val_main_v20_apply, val_main_v19_apply, val_main_v17_apply, val_main_v16_apply,
    val_main_v14_apply, val_main_v13_apply, val_main_v11_apply, val_main_v4_apply, val_main_v9_apply,
    val_main_v2_apply, val_main_v7_apply, val_main_v0_apply, val_main_v5_apply,
    val_main_v1_apply, val_main_v3_apply, val_main_v6_apply, val_main_v8_apply, val_main_v10_apply,
    val_main_v12_apply, val_main_v15_apply, val_main_v18_apply,
    val_main_cst_apply, val_main_cst_0_apply, val_main_cst_1_apply, val_main_cst_2_apply, val_main_cst_3_apply,
    val_main_cst_4_apply, val_main_cst_5_apply, val_main_cst_6_apply]
  simp only [Ideal.ofBits_def, Ideal.addf_def, Ideal.hostDivf_def, Ideal.cmpf_def]
  rw [Decode.uitofp_bit, Decode.coord_div, Decode.coord_div]
  rfl

/-- The flat bin index of the pixel at a flat position: 1024 · sample + 32 · bin(x) + bin(y), in 32-bit words. -/
theorem index_read (x0 x1 : (⟨S32x2x512x512, .f32⟩ : BufTy).Contents (Elt Ideal)) (p : S32x524288.Idx) :
    val_main_v40 (F := Ideal) x0 x1 p
      = IntOp.addi (IntOp.addi (IntOp.muli (BitVec.ofNat 32 (p 0).val) 1024#32)
            (IntOp.muli (bin (coord (x0 (idx_main_v0 p)))) 32#32)) (bin (coord (x1 (idx_main_v5 p)))) := by
  rw [val_main_v40_apply, val_main_v39_apply, val_main_v38_apply, val_main_v37_apply, val_main_v36_apply,
    val_main_v35_apply, val_main_v34_apply, val_main_v33_apply, val_main_v32_apply, val_main_v31_apply,
    val_main_v26_apply, val_main_call0_v4_apply, val_main_call0_v3_apply, val_main_call0_v2_apply,
    val_main_call0_v1_apply, val_main_call0_v0_apply, val_main_call1_v4_apply, val_main_call1_v3_apply,
    val_main_call1_v2_apply, val_main_call1_v1_apply, val_main_call1_v0_apply,
    val_main_c_apply, val_main_c_8_apply, val_main_c_10_apply, val_main_c_11_apply, val_main_c_12_apply,
    val_main_c_13_apply,
    val_main_v25_apply, val_main_v30_apply, val_main_v24_apply, val_main_v29_apply, val_main_v23_apply,
    val_main_v28_apply, val_main_v22_apply, val_main_v27_apply, val_main_cst_7_apply, val_main_cst_9_apply,
    val_main_v4_apply, val_main_v9_apply,
    val_main_v2_apply, val_main_v7_apply, val_main_v0_apply, val_main_v5_apply,
    val_main_v1_apply, val_main_v3_apply, val_main_v6_apply, val_main_v8_apply,
    val_main_cst_apply, val_main_cst_0_apply, val_main_cst_1_apply, val_main_cst_2_apply]
  simp only [Ideal.ofBits_def, Ideal.addf_def, Ideal.hostDivf_def, Ideal.mulf_def]
  rw [Decode.coord_div, Decode.coord_div]
  rfl

/-- The flat position of the pixel (b, c, h, l): ((b · 2 + c) · 512 + h) · 512 + l, a bijection onto the 16777216 positions. -/
def flatEquiv : (Fin 32 × Fin 2 × Fin 512 × Fin 512) ≃ Fin 16777216 where
  toFun q := ⟨((q.1.val * 2 + q.2.1.val) * 512 + q.2.2.1.val) * 512 + q.2.2.2.val, by
    have h0 := q.1.isLt; have h1 := q.2.1.isLt; have h2 := q.2.2.1.isLt; have h3 := q.2.2.2.isLt; omega⟩
  invFun n := (⟨n.val / 524288, by have := n.isLt; omega⟩, ⟨n.val / 262144 % 2, by omega⟩,
    ⟨n.val / 512 % 512, by omega⟩, ⟨n.val % 512, by omega⟩)
  left_inv q := by
    obtain ⟨a, c, h, l⟩ := q
    have h0 := a.isLt; have h1 := c.isLt; have h2 := h.isLt; have h3 := l.isLt
    simp only [Prod.mk.injEq, Fin.ext_iff]
    refine ⟨?_, ?_, ?_, ?_⟩ <;> omega
  right_inv n := by
    apply Fin.ext
    have := n.isLt
    simp only
    omega

/-- The flat position of the pixel (b, c, h, l), split as (sample, position in the sample), reads the pixel (b, c, h, l). -/
theorem pix_idx (a : Fin 32) (c : Fin 2) (h l : Fin 512) :
    idx_main_v0 (idx_main_v42 (ix1 (flatEquiv (a, c, h, l)))) = ix4 a c h l := by
  have h0 := a.isLt; have h1 := c.isLt; have h2 := h.isLt; have h3 := l.isLt
  funext d
  match d with
  | ⟨0, _⟩ => apply Fin.ext; show _ = a.val; simp only [flatEquiv, Equiv.coe_fn_mk]; omega
  | ⟨1, _⟩ => apply Fin.ext; show _ = c.val; simp only [flatEquiv, Equiv.coe_fn_mk]; omega
  | ⟨2, _⟩ => apply Fin.ext; show _ = h.val; simp only [flatEquiv, Equiv.coe_fn_mk]; omega
  | ⟨3, _⟩ => apply Fin.ext; show _ = l.val; simp only [flatEquiv, Equiv.coe_fn_mk]; omega

/-- Its sample coordinate is b. -/
theorem pix_sample (a : Fin 32) (c : Fin 2) (h l : Fin 512) :
    (idx_main_v42 (ix1 (flatEquiv (a, c, h, l))) 0).val = a.val := by
  have h0 := a.isLt; have h1 := c.isLt; have h2 := h.isLt; have h3 := l.isLt
  simp only [flatEquiv, Equiv.coe_fn_mk]; omega

/-- The scatter index and the update at the flat position of a pixel are read at the same (sample, position) pair. -/
theorem idx_pair (n : Fin 16777216) :
    idx_main_v41 (idx_main_v44 (ix2 n (0 : Fin 1))) = idx_main_v42 (ix1 n) := by
  funext a
  match a with
  | ⟨0, _⟩ => rfl
  | ⟨1, _⟩ => rfl

/-- What the pixel (a, c, h, l) adds to the flat bin 1024 b + 32 i + j: its cell (i, j) when a = b, else nothing. -/
theorem term_eq (x0 x1 : (⟨S32x2x512x512, .f32⟩ : BufTy).Contents (Elt Ideal)) (b i j a : Fin 32) (c : Fin 2) (h l : Fin 512) :
    (if (val_main_v44 (F := Ideal) x0 x1 (ix2 (flatEquiv (a, c, h, l)) (0 : Fin 1))).toInt
          = ((b.val * 1024 + i.val * 32 + j.val : ℕ) : ℤ)
      then val_main_v42 (F := Ideal) x0 x1 (ix1 (flatEquiv (a, c, h, l))) else 0)
    = if a = b then cell (x0 (ix4 a c h l)) (x1 (ix4 a c h l)) i j else 0 := by
  rw [val_main_v44_apply, val_main_v41_apply, val_main_v42_apply, idx_pair, index_read, weight_read]
  have h5 : idx_main_v5 (idx_main_v42 (ix1 (flatEquiv (a, c, h, l)))) = ix4 a c h l := pix_idx a c h l
  rw [h5, pix_idx, pix_sample]
  exact Decode.cell_eq_flat _ _ b a i j

/-- The reference's histogram, read at sample b and bin pair (i, j), is the specification's. -/
theorem hist_apply
    (hscat : ∀ (x : FVec Ideal S32768 .f32) (idx : IVec S16777216x1 32) (upd : FVec Ideal S16777216 .f32) (k : Fin 32768),
        Host.scatterAdd (F := Ideal) scatter_S32768_S16777216x1_S16777216_n_0_0_1 x idx upd (ix1 k)
          = x (ix1 k) + ∑ n : Fin 16777216, if (idx (ix2 n (0 : Fin 1))).toInt = (k.val : ℤ) then upd (ix1 n) else 0)
    (x0 x1 : (⟨S32x2x512x512, .f32⟩ : BufTy).Contents (Elt Ideal)) (b i j : Fin 32) :
    val_main_v46 (F := Ideal) x0 x1 (ix3 b i j) = Cert.Hist.hist x0 x1 b i j := by
  have hlt : (b.val * 32 + i.val) * 32 + j.val < 32768 := by
    have h0 := b.isLt; have h1 := i.isLt; have h2 := j.isLt; omega
  have hidx : idx_main_v46 (ix3 b i j) = ix1 (⟨(b.val * 32 + i.val) * 32 + j.val, hlt⟩ : Fin 32768) := by
    funext a
    match a with
    | ⟨0, _⟩ => rfl
  have hk : (((⟨(b.val * 32 + i.val) * 32 + j.val, hlt⟩ : Fin 32768).val : ℕ) : ℤ)
      = ((b.val * 1024 + i.val * 32 + j.val : ℕ) : ℤ) := by
    congr 1; ring
  rw [val_main_v46_apply, hidx]
  unfold val_main_v45
  rw [hscat, val_main_v43_apply, val_main_cst_14_apply, Ideal.ofBits_def, Ideal.ofBits_zero_f32, zero_add, hk]
  rw [← Equiv.sum_comp flatEquiv, Fintype.sum_prod_type]
  unfold Cert.Hist.hist
  rw [Finset.sum_eq_single b]
  · rw [Fintype.sum_prod_type]
    refine Finset.sum_congr rfl fun c _ => ?_
    rw [Fintype.sum_prod_type]
    refine Finset.sum_congr rfl fun h _ => ?_
    refine Finset.sum_congr rfl fun l _ => ?_
    rw [term_eq, if_pos rfl]
  · intro a _ ha
    apply Finset.sum_eq_zero
    intro q _
    obtain ⟨c, h, l⟩ := q
    rw [term_eq, if_neg ha]
  · intro hb
    exact absurd (Finset.mem_univ b) hb

end Cert.ReferenceIdeal.RefHist
-- ==== Proof.RefFinal.lean ====
/-
  The reference's finalization, read at the extended reals: from the 32 x 32 histogram of each sample to its mutual
  information, and from the 32 samples' mutual informations to minus their mean.

  A sum over the last two axes of a 32 x 32 x 32 array, read at sample b, is the double sum over the two summed
  coordinates; with it the sample's total, the normalised histogram p = H / ΣH, its two marginals and the cell by cell
  term p log (p / (px py)) (taken where p > 0) are those of the shared specification.
-/
import proofs.«107822_j38654705664143_1_alg».proof.Proof.RefRead
import proofs.«107822_j38654705664143_1_alg».proof.Proof.Spec

noncomputable section

open scoped BigOperators

namespace Cert.ReferenceIdeal.RefFinal

open Idealize.ShloMosaic Idealize.ShloMosaic.ValueIdx Cert.ReferenceIdeal Cert.ReferenceIdeal.Gen Cert.ReferenceIdeal.Read Cert.Hist

/-- An index of the 32 x 32 x 32 array that drops to sample b under the sum over the last two axes has b as its
    first coordinate. -/
theorem eq_ix3_of_drop (idx : S32x32x32.Idx) (b : Fin 32)
    (hd : reducesTo_S32x32x32_S32_d1_2.drop idx = ix1 b) : idx = ix3 b (idx 1) (idx 2) := by
  have h0 : idx 0 = b := by
    have h := congrFun hd 0
    exact Fin.ext (by
      have hv := Shape.ReducesTo.drop_apply_val_of_eq reducesTo_S32x32x32_S32_d1_2 idx 0 0
      have h2 : ((reducesTo_S32x32x32_S32_d1_2.drop idx 0 : Fin _) : Nat) = b.val := by rw [h]
      omega)
  rw [← h0]; exact eq_ix3 idx

/-- A sum over the last two axes of a 32 x 32 x 32 array, read at sample b: the initial value plus the double sum
    over the two summed coordinates. -/
theorem hostReduceAdd_d12 (x : S32x32x32.Idx → EReal) (init : EReal) (b : Fin 32) :
    Ideal.hostReduceAdd reducesTo_S32x32x32_S32_d1_2 x init (ix1 b)
      = init + ∑ i : Fin 32, ∑ j : Fin 32, x (ix3 b i j) := by
  unfold Ideal.hostReduceAdd
  refine congrArg (init + ·) ?_
  rw [← Finset.sum_product']
  refine Finset.sum_nbij' (fun idx => (idx 1, idx 2)) (fun p => ix3 b p.1 p.2) ?_ ?_ ?_ ?_ ?_
  · intro idx _; exact Finset.mem_product.mpr ⟨Finset.mem_univ _, Finset.mem_univ _⟩
  · intro p _
    refine Finset.mem_filter.mpr ⟨Finset.mem_univ _, ?_⟩
    funext a
    match a with
    | ⟨0, _⟩ => rfl
  · intro idx hidx
    exact (eq_ix3_of_drop idx b (Finset.mem_filter.mp hidx).2).symm
  · intro p _; rfl
  · intro idx hidx
    exact congrArg x (eq_ix3_of_drop idx b (Finset.mem_filter.mp hidx).2)

variable (x0 x1 : (⟨S32x2x512x512, .f32⟩ : BufTy).Contents (Elt Ideal))

/-- The total of sample b's histogram. -/
theorem v47_apply (b : Fin 32) :
    val_main_v47 (F := Ideal) x0 x1 (ix1 b)
      = ∑ i : Fin 32, ∑ j : Fin 32, val_main_v46 (F := Ideal) x0 x1 (ix3 b i j) := by
  unfold val_main_v47
  generalize val_main_v46 (F := Ideal) x0 x1 = H
  simp only [Host.reduceAdd, Ideal.hostReduceAdd_def]
  rw [hostReduceAdd_d12, val_main_cst_15_apply, Ideal.ofBits_def, Ideal.ofBits_zero_f32, zero_add]

/-- The normalised histogram of sample b. -/
theorem v50_apply (b i j : Fin 32) :
    val_main_v50 (F := Ideal) x0 x1 (ix3 b i j)
      = pmf (fun i j => val_main_v46 (F := Ideal) x0 x1 (ix3 b i j)) i j := by
  rw [val_main_v50_apply, val_main_v49_apply, val_main_v48_apply]
  have hidx : idx_main_v48 (idx_main_v49 (ix3 b i j)) = ix1 b := by
    funext a; match a with | ⟨0, _⟩ => rfl
  rw [hidx, v47_apply]
  rfl

/-- The first marginal: the normalised histogram summed over its second bin. -/
theorem v51_apply (b i : Fin 32) :
    val_main_v51 (F := Ideal) x0 x1 (ix2 b i) = ∑ k : Fin 32, val_main_v50 (F := Ideal) x0 x1 (ix3 b i k) := by
  rw [val_main_v51_apply, val_main_cst_16_apply, Ideal.ofBits_def, Ideal.ofBits_zero_f32, zero_add]
  refine Finset.sum_congr rfl fun k _ => congrArg _ ?_
  funext a; match a with | ⟨0, _⟩ => rfl | ⟨1, _⟩ => rfl | ⟨2, _⟩ => rfl

/-- The second marginal: the normalised histogram summed over its first bin. -/
theorem v52_apply (b j : Fin 32) :
    val_main_v52 (F := Ideal) x0 x1 (ix2 b j) = ∑ k : Fin 32, val_main_v50 (F := Ideal) x0 x1 (ix3 b k j) := by
  rw [val_main_v52_apply, val_main_cst_17_apply, Ideal.ofBits_def, Ideal.ofBits_zero_f32, zero_add]
  refine Finset.sum_congr rfl fun k _ => congrArg _ ?_
  funext a; match a with | ⟨0, _⟩ => rfl | ⟨1, _⟩ => rfl | ⟨2, _⟩ => rfl

/-- The mutual information of sample b, from its histogram. -/
theorem mi_apply (b : Fin 32) :
    val_main_v66 (F := Ideal) x0 x1 (ix1 b)
      = Cert.Hist.mi (fun i j => val_main_v46 (F := Ideal) x0 x1 (ix3 b i j)) := by
  have h66 : val_main_v66 (F := Ideal) x0 x1 (ix1 b)
      = ∑ i : Fin 32, ∑ j : Fin 32, val_main_v65 (F := Ideal) x0 x1 (ix3 b i j) := by
    unfold val_main_v66
    generalize val_main_v65 (F := Ideal) x0 x1 = G
    simp only [Host.reduceAdd, Ideal.hostReduceAdd_def]
    rw [hostReduceAdd_d12, val_main_cst_22_apply, Ideal.ofBits_def, Ideal.ofBits_zero_f32, zero_add]
  rw [h66]
  unfold Cert.Hist.mi
  refine Finset.sum_congr rfl fun i _ => Finset.sum_congr rfl fun j _ => ?_
  have h53 : idx_main_v53 (idx_main_v55 (ix3 b i j)) = ix2 b i := by
    funext a; match a with | ⟨0, _⟩ => rfl | ⟨1, _⟩ => rfl
  have h54 : idx_main_v54 (idx_main_v56 (ix3 b i j)) = ix2 b j := by
    funext a; match a with | ⟨0, _⟩ => rfl | ⟨1, _⟩ => rfl
  rw [val_main_v65_apply, val_main_v64_apply, val_main_v63_apply, val_main_v62_apply, val_main_v61_apply,
    val_main_v60_apply, val_main_v59_apply, val_main_v57_apply, val_main_v55_apply, val_main_v53_apply,
    val_main_v56_apply, val_main_v54_apply, h53, h54, v51_apply, v52_apply, val_main_v58_apply,
    val_main_cst_18_apply, val_main_call2_v1_apply, val_main_call2_v0_apply, val_main_cst_19_apply,
    val_main_call3_v1_apply, val_main_call3_v0_apply, val_main_cst_20_apply,
    val_main_call4_v1_apply, val_main_call4_v0_apply, val_main_cst_21_apply]
  simp only [v50_apply]
  simp only [Ideal.ofBits_def, Ideal.cmpf_def, Ideal.mulf_def, Ideal.hostUnary_log_def, Ideal.hostDivf_def]

/-- The result: minus the mean of the 32 samples' mutual information. -/
theorem result_apply :
    val_main_v69 (F := Ideal) x0 x1 ix0
      = -(Ideal.div (∑ b : Fin 32, val_main_v66 (F := Ideal) x0 x1 (ix1 b)) (Ideal.ofBits .f32 0x42000000#32)) := by
  have hs : ∑ j : S32.Idx, val_main_v66 (F := Ideal) x0 x1 j = ∑ b : Fin 32, val_main_v66 (F := Ideal) x0 x1 (ix1 b) :=
    Fintype.sum_equiv ⟨fun j => j 0, ix1, fun j => (eq_ix1 j).symm, fun _ => rfl⟩ _ _ (fun j => congrArg _ (eq_ix1 j))
  rw [val_main_v69_apply, val_main_v68_apply, val_main_v67_apply, val_main_cst_23_apply, val_main_cst_24_apply, hs,
    Ideal.ofBits_def, Ideal.ofBits_zero_f32, zero_add]
  rfl

end Cert.ReferenceIdeal.RefFinal

end
-- ==== Proof.ScatterRead.lean ====
import proofs.«107822_j38654705664143_1_alg».proof.Proof.Gen.ReferenceIdeal
import Idealize.ShloMosaic.PureOps.Ideal
import Idealize.ShloMosaic.Lib.ValueIdx
import Mathlib.Algebra.BigOperators.Group.Finset.Defs
import Mathlib.Algebra.BigOperators.Group.Finset.Basic

namespace Cert.ReferenceIdeal.ScatterRead

open Idealize.ShloMosaic Idealize.ShloMosaic.ValueIdx Cert.ReferenceIdeal Cert.ReferenceIdeal.Gen
open scoped BigOperators

/-! ## The scatter's dimension numbers at any sizes

The operand has one axis of `K` elements, the scatter indices are `N` index vectors of one
component, the updates are `N` scalars: no update window axis, the operand's axis an inserted
window axis, the one index component naming the operand's axis. -/

section Generic

variable {K N : Nat}

/-- The dimension numbers, over any proof of their side conditions. -/
abbrev dims (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

variable (wf : ScatterDims.WF ⟨1, ![K]⟩ ⟨2, ![N, 1]⟩ ⟨1, ![N]⟩ [] [0] [0] 1)

/-- Update index `j` reads its start index at row `j 0`, component `0` of the scatter indices. -/
theorem siIdx_eq (j : (⟨1, ![N]⟩ : Shape).Idx) (c : Fin (dims wf).scatterDimsToOperandDims.length) :
    (dims wf).siIdx j c = ix2 (j 0) (0 : Fin 1) := by
  funext b
  match b with
  | ⟨0, _⟩ =>
    unfold ScatterDims.siIdx
    rw [dif_neg (show ¬ (0 : ℕ) = 1 by decide)]
    unfold ScatterDims.siCoord
    apply Fin.ext
    simp only [Fin.coe_cast]
    exact congrArg (fun a => (j a).val) (Subsingleton.elim _ _)
  | ⟨1, _⟩ =>
    apply Fin.ext
    have := c.isLt
    simp [ScatterDims.siIdx]

/-- The start of the window: the scatter-index word of row `j 0`, read signed. -/
theorem start_eq {w : Nat} (j : (⟨1, ![N]⟩ : Shape).Idx) (idx : IVec ⟨2, ![N, 1]⟩ w)
    (a : Fin (Shape.rank ⟨1, ![K]⟩)) :
    (dims wf).start j idx a = (idx (ix2 (j 0) (0 : Fin 1))).toInt := by
  unfold ScatterDims.start
  have ha : a ∈ (dims wf).scatterDimsToOperandDims := by
    have : a = 0 := Subsingleton.elim _ _
    subst this
    exact List.mem_singleton_self _
  rw [dif_pos ha, siIdx_eq]
  rfl

/-- The operand's one axis is an inserted window axis: the window coordinate is `0`. -/
theorem window_eq (j : (⟨1, ![N]⟩ : Shape).Idx) (a : Fin (Shape.rank ⟨1, ![K]⟩)) :
    (dims wf).window j a = 0 := by
  unfold ScatterDims.window
  rw [dif_neg]
  intro h
  simp [ScatterDims.sKept, Shape.kept] at h
  exact h (Subsingleton.elim _ _)

/-- Update index `j` lands on operand index `i` exactly when its signed index word is `i`'s coordinate. -/
theorem resultIdx?_eq_some_iff {w : Nat} (j : (⟨1, ![N]⟩ : Shape).Idx) (idx : IVec ⟨2, ![N, 1]⟩ w)
    (i : (⟨1, ![K]⟩ : Shape).Idx) :
    (dims wf).resultIdx? j idx = some i ↔ (idx (ix2 (j 0) (0 : Fin 1))).toInt = ((i 0).val : ℤ) := by
  have hi : (i 0).val < K := (i 0).isLt
  unfold ScatterDims.resultIdx?
  simp only [start_eq, window_eq]
  split_ifs with h
  · constructor
    · intro he
      have := congrArg (fun f => ((f 0).val : ℤ)) (Option.some.inj he)
      simp at this
      have h0 := (h 0).1
      omega
    · intro he
      congr 1
      funext a
      have : a = 0 := Subsingleton.elim _ _
      subst this
      apply Fin.ext
      simp
      omega
  · constructor
    · intro he
      cases he
    · intro he
      exfalso
      apply h
      intro a
      have : a = 0 := Subsingleton.elim _ _
      subst this
      constructor
      · omega
      · show _ < ((K : ℕ) : ℤ)
        omega

/-- A rank-1 index set is its coordinate's range. -/
def idxEquiv1 : Fin N ≃ (⟨1, ![N]⟩ : Shape).Idx where
  toFun := ix1
  invFun j := j 0
  left_inv _ := rfl
  right_inv j := (eq_ix1 j).symm

/-- The accumulating scatter read at operand index `k`: the operand's element plus every update
    whose signed index word is `k`. -/
theorem scatter_generic {w : Nat} (x : (⟨1, ![K]⟩ : Shape).Idx → EReal) (idx : IVec ⟨2, ![N, 1]⟩ w)
    (upd : (⟨1, ![N]⟩ : Shape).Idx → EReal) (k : Fin K) :
    Ideal.hostScatterAdd (dims wf) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter]
  refine (Fintype.sum_equiv idxEquiv1 _ _ fun n => ?_).symm
  have hiff := resultIdx?_eq_some_iff wf (idxEquiv1 n) idx (ix1 k)
  by_cases hc : (idx (ix2 n (0 : Fin 1))).toInt = (k.val : ℤ)
  · rw [if_pos hc, if_pos (hiff.2 hc)]
    rfl
  · rw [if_neg hc, if_neg (fun h => hc (hiff.1 h))]

end Generic

/-- The reference's scatter-add read at index `k`: the operand's element plus the sum of the
    updates whose index word, read signed, is `k`. -/
theorem scatter_apply (x : FVec Ideal S32768 .f32) (idx : IVec S16777216x1 32) (upd : FVec Ideal S16777216 .f32)
    (k : Fin 32768) :
    Host.scatterAdd (F := Ideal) scatter_S32768_S16777216x1_S16777216_n_0_0_1 x idx upd (ix1 k)
      = x (ix1 k) + ∑ n : Fin 16777216, if (idx (ix2 n (0 : Fin 1))).toInt = (k.val : ℤ) then upd (ix1 n) else 0 :=
  scatter_generic (K := 32768) (N := 16777216) scatter_S32768_S16777216x1_S16777216_n_0_0_1.wf x idx upd k

end Cert.ReferenceIdeal.ScatterRead
-- ==== Proof.RefValue.lean ====
/-
  The idealized reference's result: its scatter-add histogram is the specification's joint histogram, its
  per-sample formula the specification's mutual information, and its last three operations minus the mean.
-/
import proofs.«107822_j38654705664143_1_alg».proof.Proof.RefRead
import proofs.«107822_j38654705664143_1_alg».proof.Proof.RefHist
import proofs.«107822_j38654705664143_1_alg».proof.Proof.RefFinal
import proofs.«107822_j38654705664143_1_alg».proof.Proof.ScatterRead
import proofs.«107822_j38654705664143_1_alg».proof.Proof.Spec

noncomputable section
open scoped BigOperators
namespace Cert.ReferenceIdeal.RefValue
open Idealize.ShloMosaic Idealize.ShloMosaic.TcCoe Idealize.ShloMosaic.ValueIdx Idealize.SL.Sem
open Cert.ReferenceIdeal Cert.ReferenceIdeal.Gen Cert.ReferenceIdeal.Read
open Cert.Hist

/-- The reference's composed result, as a function of the two image batches, is minus the mean mutual information. -/
theorem val_result (x0 x1 : (⟨S32x2x512x512, .f32⟩ : BufTy).Contents (Elt Ideal)) :
    val_main_v69 (F := Ideal) x0 x1 = fun (_ : S_.Idx) => result x0 x1 := by
  funext i
  obtain rfl := eq_ix0 i
  rw [RefFinal.result_apply]
  unfold result
  refine congrArg (fun s => -(Ideal.div s (Ideal.ofBits .f32 0x42000000#32))) (Finset.sum_congr rfl fun b _ => ?_)
  rw [RefFinal.mi_apply]
  exact congrArg mi (funext fun i => funext fun j => RefHist.hist_apply ScatterRead.scatter_apply x0 x1 b i j)

/-- So the run's result term is that number, on every device. -/
theorem res_eq (m : (ℓ : Loc nD τ sig) → Buf (Elt Ideal) ℓ) (c : Dev nD) :
    Cert.ReferenceIdeal.Value.res_main_v69 (F := Ideal) m c
      = fun (_ : S_.Idx) => result (m ((c.tc : Thread nD τ).loc main_arg0)) (m ((c.tc : Thread nD τ).loc main_arg1)) :=
  (val_main_v69_eq m c).trans (val_result _ _)

end Cert.ReferenceIdeal.RefValue
end
-- ==== Proof.RowFold.lean ====
/-
  One row of pixels at a time. The kernel body takes a 128 x 512 block of each image and, row by row, forms the
  32 x 32 matrix of joint counts of that row as a product of two one-hot matrices contracted over the row's 512
  pixels, adding the 128 products onto zero. Here that row step is written once, as a function of the row's
  number, and the block's counts as the sum of the first n rows' counts.
-/
import proofs.«107822_j38654705664143_1_alg».proof.Proof.Gen.KernelIdeal

noncomputable section
namespace Cert.KernelIdeal.RowFold
open Idealize.ShloMosaic Idealize.SL.Sem
open Cert.KernelIdeal Cert.KernelIdeal.Gen

variable {F : FTy → Type} [FloatOps F]

/-- Row r of a 128 x 512 block is a 1 x 512 slice of it. -/
theorem rowSlices (r : ℕ) (hr : r < 128) : S128x512.Slices ![r, 0] S1x512 :=
  ⟨rfl, fun a => by
    match a with
    | ⟨0, _⟩ => show r + 1 ≤ 128; omega
    | ⟨1, _⟩ => show 0 + 512 ≤ 512; omega⟩

/-- The scaled coordinate of one row of pixels: (x + 1) · 0.5. -/
def unitCoord (xr : FVec F S1x512 .f32) : FVec F S1x512 .f32 :=
  mulf (addf xr (broadcast S1x512 (Scalar.ofBits .f32 0x3F800000#32))) (broadcast S1x512 (Scalar.ofBits .f32 0x3F000000#32))

/-- The weight of one row of pixel pairs: 1 where both scaled coordinates lie in [0, 1], else 0. -/
def rowWeight (u v : FVec F S1x512 .f32) : FVec F S1x512 .f32 :=
  sitofp .f32 (extui 32 (andi (andi (andi (cmpf .oge u (broadcast S1x512 (Scalar.ofBits .f32 0x00000000#32))) (cmpf .ole u (broadcast S1x512 (Scalar.ofBits .f32 0x3F800000#32))))
    (cmpf .oge v (broadcast S1x512 (Scalar.ofBits .f32 0x00000000#32)))) (cmpf .ole v (broadcast S1x512 (Scalar.ofBits .f32 0x3F800000#32)))) natLt_1_32)

/-- The bin of each pixel of a row: ⌊32 u⌋ clamped to [0, 31]. -/
def rowBin (u : FVec F S1x512 .f32) : IVec S1x512 32 :=
  minsi (broadcast S1x512 31#32) (maxsi (broadcast S1x512 0#32) (fptosi 32 (floor (mulf u (broadcast S1x512 (Scalar.ofBits .f32 0x42000000#32))))))

/-- The one-hot matrix of a row's bins: entry (i, l) is 1 where pixel l falls in bin i (v5 is the column 0, 1, …, 31). -/
def oneHot (v5 : IVec S32x1 32) (b : IVec S1x512 32) : FVec F S32x512 .bf16 :=
  truncf .bf16 (sitofp .f32 (extui 32 (cmpi .eq (broadcastTo S32x512 v5 broadcasts_S32x1_S32x512) (broadcastTo S32x512 b broadcasts_S1x512_S32x512)) natLt_1_32)) bitsLt_bf16_f32

/-- One row's 32 x 32 joint counts: the weighted one-hot of the first image's bins times the one-hot of the second's,
    contracted over the 512 pixels of the row, onto zero. -/
def rowCounts (v5 : IVec S32x1 32) (xr yr : FVec F S1x512 .f32) : FVec F S32x32 .f32 :=
  matmul dot_S32x512_S32x512_S32x32_1_1_0_0_n_n none
    (mulf (oneHot v5 (rowBin (unitCoord xr))) (broadcastTo S32x512 (truncf .bf16 (rowWeight (unitCoord xr) (unitCoord yr)) bitsLt_bf16_f32) broadcasts_S1x512_S32x512))
    (oneHot v5 (rowBin (unitCoord yr)))
    (constant S32x32 .f32 0x00000000#32)

/-- The counts of the first n rows of a pair of 128 x 512 blocks, added row after row onto zero. -/
def accUpTo (v5 : IVec S32x1 32) (v7 v9 : FVec F S128x512 .f32) : (n : ℕ) → n ≤ 128 → FVec F S32x32 .f32
  | 0, _ => broadcast S32x32 (Scalar.ofBits .f32 0x00000000#32)
  | n + 1, h => addf (accUpTo v5 v7 v9 n (Nat.le_of_succ_le h))
      (rowCounts v5 (extractStridedSlice S1x512 ![n, 0] v7 (rowSlices n h)) (extractStridedSlice S1x512 ![n, 0] v9 (rowSlices n h)))

/-- The joint counts of one pair of staged blocks (1 x 1 x 128 x 512 each): all 128 rows. -/
def blockCounts (x0 x1 : Vec F S1x1x128x512 .f32) : FVec F S32x32 .f32 :=
  accUpTo (iota .tc S32x1 32 [0] iota_S32x1_d0_w32)
    (shapeCast S128x512 x0 shapeCasts_S1x1x128x512_S128x512) (shapeCast S128x512 x1 shapeCasts_S1x1x128x512_S128x512) 128 (Nat.le_refl _)

end Cert.KernelIdeal.RowFold
end
-- ==== Proof.Pieces.lean ====
/-
  What one grid point leaves behind, case by case. The body adds the block pair's joint counts onto the 32 x 32
  accumulator it carries between grid points: at a sample's first point onto zero (the accumulator is reset
  there), at every other point onto what the point before left; at a sample's last point it also writes the
  mutual information of the finished histogram, broadcast over the 8 x 128 output block.
-/
import proofs.«107822_j38654705664143_1_alg».proof.Proof.Gen.KernelIdeal.Frame
import proofs.«107822_j38654705664143_1_alg».proof.Proof.RowFold
import Idealize.ShloMosaic.Lib.Pipeline.Value

set_option maxRecDepth 65536

noncomputable section
namespace Cert.KernelIdeal.Pieces
open Idealize.ShloMosaic Idealize.ShloMosaic.TcCoe Idealize.ShloMosaic.Tactic
open Idealize.SL Idealize.SL.Sem
open Cert.KernelIdeal Cert.KernelIdeal.Gen Cert.KernelIdeal.RowFold

variable {F : FTy → Type} [FloatOps F]

theorem hz2 : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

/-- The all-zero 32 x 32 matrix the accumulator is reset to. -/
def zeroAcc : FVec F S32x32 .f32 := broadcast S32x32 (Scalar.ofBits .f32 0x00000000#32)

/-- The 128 unrolled row steps of the body are the row sum, added onto the loaded accumulator: at a point that is
    neither first nor last of its sample, -/
theorem runB_eq (c : Dev nD) (arg3 : Memref sig .tc .vmem S1x1x128x512 .f32) (harg3 : arg3.IsWhole) (arg4 : Memref sig .tc .vmem S1x1x128x512 .f32) (harg4 : arg4.IsWhole) (arg6 : Memref sig .tc .vmem S32x32 .f32) (harg6 : arg6.IsWhole)
    (x0 x1 : Vec F S1x1x128x512 .f32) (xs0 : Vec F S32x32 .f32) :
    kernelRun0_B.sl.r_535 c arg3 harg3 arg4 harg4 arg6 harg6 x0 x1 xs0
      = addf (View.readAt (Elt F) arg6.view (Rect.unit (s := S32x32) ![0, 0] S32x32.size inb_S32x32_S32x32_0_0).toLoadRect (harg6.unread xs0)) (blockCounts (View.readAt (Elt F) arg3.view (Rect.unit (s := S1x1x128x512) ![0, 0, 0, 0] S1x1x128x512.size inb_S1x1x128x512_S1x1x128x512_0_0_0_0).toLoadRect (harg3.unread x0)) (View.readAt (Elt F) arg4.view (Rect.unit (s := S1x1x128x512) ![0, 0, 0, 0] S1x1x128x512.size inb_S1x1x128x512_S1x1x128x512_0_0_0_0).toLoadRect (harg4.unread x1))) := rfl

/-- at a sample's last point, -/
theorem runC_eq (c : Dev nD) (arg3 : Memref sig .tc .vmem S1x1x128x512 .f32) (harg3 : arg3.IsWhole) (arg4 : Memref sig .tc .vmem S1x1x128x512 .f32) (harg4 : arg4.IsWhole) (arg6 : Memref sig .tc .vmem S32x32 .f32) (harg6 : arg6.IsWhole)
    (x0 x1 : Vec F S1x1x128x512 .f32) (xs0 : Vec F S32x32 .f32) :
    kernelRun0_C.sl.r_535 c arg3 harg3 arg4 harg4 arg6 harg6 x0 x1 xs0
      = addf (View.readAt (Elt F) arg6.view (Rect.unit (s := S32x32) ![0, 0] S32x32.size inb_S32x32_S32x32_0_0).toLoadRect (harg6.unread xs0)) (blockCounts (View.readAt (Elt F) arg3.view (Rect.unit (s := S1x1x128x512) ![0, 0, 0, 0] S1x1x128x512.size inb_S1x1x128x512_S1x1x128x512_0_0_0_0).toLoadRect (harg3.unread x0)) (View.readAt (Elt F) arg4.view (Rect.unit (s := S1x1x128x512) ![0, 0, 0, 0] S1x1x128x512.size inb_S1x1x128x512_S1x1x128x512_0_0_0_0).toLoadRect (harg4.unread x1))) := rfl

/-- and at a sample's first point, where the accumulator loaded is the one just reset. -/
theorem runA_eq (c : Dev nD) (arg3 : Memref sig .tc .vmem S1x1x128x512 .f32) (harg3 : arg3.IsWhole) (arg4 : Memref sig .tc .vmem S1x1x128x512 .f32) (harg4 : arg4.IsWhole) (arg6 : Memref sig .tc .vmem S32x32 .f32)
    (x0 x1 : Vec F S1x1x128x512 .f32) :
    kernelRun0_A.sl.r_535 c arg3 harg3 arg4 harg4 arg6 x0 x1
      = addf (kernelRun0_A.sl.v7179 c arg6) (blockCounts (View.readAt (Elt F) arg3.view (Rect.unit (s := S1x1x128x512) ![0, 0, 0, 0] S1x1x128x512.size inb_S1x1x128x512_S1x1x128x512_0_0_0_0).toLoadRect (harg3.unread x0)) (View.readAt (Elt F) arg4.view (Rect.unit (s := S1x1x128x512) ![0, 0, 0, 0] S1x1x128x512.size inb_S1x1x128x512_S1x1x128x512_0_0_0_0).toLoadRect (harg4.unread x1))) := rfl

/-- A sample's first point leaves zero plus the block pair's counts. -/
theorem scratch_A (c : Dev nD) (i : grid0.Coords) (arg3 : Memref sig .tc .vmem S1x1x128x512 .f32) (harg3 : arg3.IsWhole) (arg4 : Memref sig .tc .vmem S1x1x128x512 .f32) (harg4 : arg4.IsWhole) (arg5 : Memref sig .tc .vmem S1x8x128 .f32) (harg5 : arg5.IsWhole) (arg6 : Memref sig .tc .vmem S32x32 .f32) (harg6 : arg6.IsWhole) (hc0 : cond0_0 i) (hc1 : ¬cond0_1 i)
    (x0 x1 : Vec F S1x1x128x512 .f32) :
    sout0_A_0 c i arg3 harg3 arg4 harg4 arg5 harg5 arg6 harg6 hc0 hc1 x0 x1 = k0_pay1 (addf k0_pay3 (blockCounts x0 x1)) := by
  unfold sout0_A_0
  rw [View.read_writes_eq_canon _ _ _ (scover0_A_0 c i arg3 harg3 arg4 harg4 arg5 harg5 arg6 harg6 hc0 hc1 x0 x1)]
  unfold kernelRun0_A
  dsimp only
  rw [View.canon_cons_unit_zero (S := S32x32) hz2, runA_eq]
  unfold kernelRun0_A.sl.v7179 kernelRun0_A.sl.HS0_1
  rw [View.readCov_unit_zero (S := S32x32) _ hz2]
  simp only [View.readAt_eq_ld, Memref.IsWhole.read_unread, View.ld_unit_zero (S := S32x32) hz2, View.ld_unit_zero (S := S1x1x128x512) hz4]

/-- A point that is neither a sample's first nor its last leaves the carried accumulator plus the block pair's counts. -/
theorem scratch_B (c : Dev nD) (i : grid0.Coords) (arg3 : Memref sig .tc .vmem S1x1x128x512 .f32) (harg3 : arg3.IsWhole) (arg4 : Memref sig .tc .vmem S1x1x128x512 .f32) (harg4 : arg4.IsWhole) (arg5 : Memref sig .tc .vmem S1x8x128 .f32) (harg5 : arg5.IsWhole) (arg6 : Memref sig .tc .vmem S32x32 .f32) (harg6 : arg6.IsWhole) (hc0 : ¬cond0_0 i) (hc1 : ¬cond0_1 i)
    (x0 x1 : Vec F S1x1x128x512 .f32) (xs0 : Vec F S32x32 .f32) :
    sout0_B_0 c i arg3 harg3 arg4 harg4 arg5 harg5 arg6 harg6 hc0 hc1 x0 x1 xs0 = k0_pay1 (addf xs0 (blockCounts x0 x1)) := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz2, runB_eq]
  simp only [View.readAt_eq_ld, Memref.IsWhole.read_unread, View.ld_unit_zero (S := S32x32) hz2, View.ld_unit_zero (S := S1x1x128x512) hz4]

/-- A sample's last point leaves the same in the accumulator, -/
theorem scratch_C (c : Dev nD) (i : grid0.Coords) (arg3 : Memref sig .tc .vmem S1x1x128x512 .f32) (harg3 : arg3.IsWhole) (arg4 : Memref sig .tc .vmem S1x1x128x512 .f32) (harg4 : arg4.IsWhole) (arg5 : Memref sig .tc .vmem S1x8x128 .f32) (harg5 : arg5.IsWhole) (arg6 : Memref sig .tc .vmem S32x32 .f32) (harg6 : arg6.IsWhole) (hc0 : ¬cond0_0 i) (hc1 : cond0_1 i)
    (x0 x1 : Vec F S1x1x128x512 .f32) (xs0 : Vec F S32x32 .f32) :
    sout0_C_0 c i arg3 harg3 arg4 harg4 arg5 harg5 arg6 harg6 hc0 hc1 x0 x1 xs0 = k0_pay1 (addf xs0 (blockCounts x0 x1)) := by
  unfold sout0_C_0
  rw [View.read_writes_eq_canon _ _ _ (scover0_C_0 c i arg3 harg3 arg4 harg4 arg5 harg5 arg6 harg6 hc0 hc1 x0 x1 xs0)]
  unfold kernelRun0_C
  dsimp only
  unfold kernelRun0_C.sl.HS0_1
  rw [View.canon_unit_zero hz2, runC_eq]
  simp only [View.readAt_eq_ld, Memref.IsWhole.read_unread, View.ld_unit_zero (S := S32x32) hz2, View.ld_unit_zero (S := S1x1x128x512) hz4]

/-- and writes the finished histogram's mutual information over the output block. -/
theorem out_C (c : Dev nD) (i : grid0.Coords) (arg3 : Memref sig .tc .vmem S1x1x128x512 .f32) (harg3 : arg3.IsWhole) (arg4 : Memref sig .tc .vmem S1x1x128x512 .f32) (harg4 : arg4.IsWhole) (arg5 : Memref sig .tc .vmem S1x8x128 .f32) (harg5 : arg5.IsWhole) (arg6 : Memref sig .tc .vmem S32x32 .f32) (harg6 : arg6.IsWhole) (hc0 : ¬cond0_0 i) (hc1 : cond0_1 i)
    (x0 x1 : Vec F S1x1x128x512 .f32) (xs0 : Vec F S32x32 .f32) :
    out0_C_2 c i arg3 harg3 arg4 harg4 arg5 harg5 arg6 harg6 hc0 hc1 x0 x1 xs0 = k0_pay2 (k0_pay1 (addf xs0 (blockCounts x0 x1))) := by
  unfold out0_C_2
  rw [View.read_writes_eq_canon _ _ _ (cover0_C_2 c i arg3 harg3 arg4 harg4 arg5 harg5 arg6 harg6 hc0 hc1 x0 x1 xs0)]
  unfold kernelRun0_C
  dsimp only
  rw [View.canon_unit_zero hz3]
  unfold kernelRun0_C.sl.v7189 kernelRun0_C.sl.HS0_1
  rw [View.readCov_unit_zero (S := S32x32) _ hz2, runC_eq]
  simp only [View.readAt_eq_ld, Memref.IsWhole.read_unread, View.ld_unit_zero (S := S32x32) hz2, View.ld_unit_zero (S := S1x1x128x512) hz4]

end Cert.KernelIdeal.Pieces
end
-- ==== Proof.Points.lean ====
/-
  The accumulator across a sample's eight grid points. A grid point is (sample, channel, height chunk), 32 x 2 x 4
  of them in row-major order, so point t belongs to sample t / 8 and is its (t % 8)-th point. The carried 32 x 32
  accumulator is reset at t % 8 = 0 and stepped at every other point by adding that point's block pair's counts;
  at t % 8 = 7 the body also writes the mutual information of what the accumulator then holds.
-/
import proofs.«107822_j38654705664143_1_alg».proof.Proof.Pieces
import Idealize.ShloMosaic.Lib.Pipeline.Value

set_option maxRecDepth 16384

noncomputable section
namespace Cert.KernelIdeal.Points
open Idealize.ShloMosaic Idealize.ShloMosaic.TcCoe
open Idealize.SL Idealize.SL.Sem
open Cert.KernelIdeal Cert.KernelIdeal.Gen Cert.KernelIdeal.RowFold Cert.KernelIdeal.Pieces

variable {F : FTy → Type} [FloatOps F]
variable (m : (ℓ : Loc nD τ sig) → Buf (Elt F) ℓ)

/-- The joint counts of the block pair staged at grid point n. -/
def pairCounts (c : Dev nD) (n : ℕ) (h : n < cfg0.N) : FVec F S32x32 .f32 :=
  blockCounts (iblk m c 0 ⟨n, h⟩) (iblk m c 1 ⟨n, h⟩)

/-- What a sample's first point leaves in the accumulator: zero plus its block pair's counts. -/
def resetVal (c : Dev nD) (n : ℕ) (h : n < cfg0.N) : Vec F S32x32 .f32 :=
  k0_pay1 (addf k0_pay3 (pairCounts m c n h))

/-- What any later point leaves: what it found plus its block pair's counts. -/
def stepVal (c : Dev nD) (n : ℕ) (h : n < cfg0.N) (acc : Vec F S32x32 .f32) : Vec F S32x32 .f32 :=
  k0_pay1 (addf acc (pairCounts m c n h))

theorem scratch_reset (c : Dev nD) (n : ℕ) (h : n < cfg0.N) (h0 : n % 8 = 0) :
    (outsAt0 m c n h).2 = resetVal m c n h := by
  have h0' : (⟨n, h⟩ : Fin cfg0.N).val % 8 = 0 := h0
  have h7 : ¬(⟨n, h⟩ : Fin cfg0.N).val % 8 = 7 := by dsimp only; omega
  rw [show outsAt0 m c n h = outsAt0 m c (⟨n, h⟩ : Fin cfg0.N).val (⟨n, h⟩ : Fin cfg0.N).isLt from rfl,
    outsAt0_A m c ⟨n, h⟩ h0' h7]
  dsimp only
  exact scratch_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0') (fun hh => h7 ((hcond0_1 ⟨n, h⟩).mp hh))
    (iblk m c 0 ⟨n, h⟩) (iblk m c 1 ⟨n, h⟩)

theorem scratch_step (c : Dev nD) (n : ℕ) (h : n + 1 < cfg0.N) (hne : ¬(n + 1) % 8 = 0) :
    (outsAt0 m c (n + 1) h).2 = stepVal m c (n + 1) h ((outsAt0 m c n (Nat.lt_of_succ_lt h)).2) := by
  have hne' : ¬(⟨n + 1, h⟩ : Fin cfg0.N).val % 8 = 0 := hne
  by_cases h7 : (⟨n + 1, h⟩ : Fin cfg0.N).val % 8 = 7
  · rw [show outsAt0 m c (n + 1) h = outsAt0 m c (⟨n + 1, h⟩ : Fin cfg0.N).val (⟨n + 1, h⟩ : Fin cfg0.N).isLt from rfl,
      outsAt0_C m c ⟨n + 1, h⟩ hne' h7]
    dsimp only
    exact scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => hne' ((hcond0_0 ⟨n + 1, h⟩).mp hh)) ((hcond0_1 ⟨n + 1, h⟩).mpr h7)
      (iblk m c 0 ⟨n + 1, h⟩) (iblk m c 1 ⟨n + 1, h⟩) ((outsAt0 m c n (Nat.lt_of_succ_lt h)).2)
  · rw [show outsAt0 m c (n + 1) h = outsAt0 m c (⟨n + 1, h⟩ : Fin cfg0.N).val (⟨n + 1, h⟩ : Fin cfg0.N).isLt from rfl,
      outsAt0_B m c ⟨n + 1, h⟩ hne' h7]
    dsimp only
    exact scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => hne' ((hcond0_0 ⟨n + 1, h⟩).mp hh)) (fun hh => h7 ((hcond0_1 ⟨n + 1, h⟩).mp hh))
      (iblk m c 0 ⟨n + 1, h⟩) (iblk m c 1 ⟨n + 1, h⟩) ((outsAt0 m c n (Nat.lt_of_succ_lt h)).2)

/-- After any point the accumulator is the fold over its sample's points so far. -/
theorem scratch_fold (c : Dev nD) (t : ℕ) (ht : t < cfg0.N) (h' : 8 * (t / 8) + t % 8 < cfg0.N) :
    (outsAt0 m c t ht).2 = Pipeline.accAt (resetVal m c) (stepVal m c) (8 * (t / 8)) (t % 8) h' :=
  Pipeline.eq_accAt_of_mod (fun n h => (outsAt0 m c n h).2) 8 (resetVal m c) (stepVal m c)
    (scratch_reset m c) (scratch_step m c) (by decide) t ht h'

/-- At a sample's last point the output block holds the finalization of what the accumulator then holds. -/
theorem out_last (c : Dev nD) (t : Fin cfg0.N) (h7 : t.val % 8 = 7) :
    (outsAt0 m c t.val t.isLt).1 = k0_pay2 ((outsAt0 m c t.val t.isLt).2) := by
  have hne : ¬t.val % 8 = 0 := by omega
  rw [outsAt0_C m c t hne h7]
  dsimp only
  exact (out_C c (grid0.coords t) (ms0_0 t) (hs0_0 t) (ms0_1 t) (hs0_1 t) (ms0_2 t) (hs0_2 t) scM0_0 (Memref.isWhole_whole _) (fun hh => hne ((hcond0_0 t).mp hh)) ((hcond0_1 t).mpr h7)
      (iblk m c 0 t) (iblk m c 1 t) ((outsAt0 m c (t.val - 1) (Nat.lt_of_le_of_lt (Nat.sub_le _ _) t.isLt)).2)).trans
    (congrArg k0_pay2 (scratch_C c (grid0.coords t) (ms0_0 t) (hs0_0 t) (ms0_1 t) (hs0_1 t) (ms0_2 t) (hs0_2 t) scM0_0 (Memref.isWhole_whole _) (fun hh => hne ((hcond0_0 t).mp hh)) ((hcond0_1 t).mpr h7)
      (iblk m c 0 t) (iblk m c 1 t) ((outsAt0 m c (t.val - 1) (Nat.lt_of_le_of_lt (Nat.sub_le _ _) t.isLt)).2)).symm)

end Cert.KernelIdeal.Points
end
-- ==== Proof.KAcc.lean ====
/-
  At the extended reals the carried accumulator after a sample's last grid point is the plain sum of the joint
  counts of that sample's eight block pairs: the reset contributes zero, every step adds its point's counts, and
  the identity reshapes around each step are the identity.
-/
import proofs.«107822_j38654705664143_1_alg».proof.Proof.Points
import Idealize.ShloMosaic.Lib.Pipeline.Value
import Idealize.ShloMosaic.PureOps.Ideal.Laws

set_option maxRecDepth 16384

noncomputable section
open scoped BigOperators
namespace Cert.KernelIdeal.KAcc
open Idealize.ShloMosaic Idealize.ShloMosaic.TcCoe
open Idealize.SL Idealize.SL.Sem
open Cert.KernelIdeal Cert.KernelIdeal.Gen Cert.KernelIdeal.RowFold Cert.KernelIdeal.Pieces Cert.KernelIdeal.Points

/-- The reshape of a 32 x 32 matrix to its own shape is the identity. -/
theorem pay1_self {F : FTy → Type} [FloatOps F] (h : FVec F S32x32 .f32) : k0_pay1 h = h := by
  unfold k0_pay1; exact shapeCast_self _ _

/-- The reset value is zero everywhere. -/
theorem pay3_apply (idx : S32x32.Idx) : k0_pay3 (F := Ideal) idx = 0 := by
  unfold k0_pay3; rw [shapeCast_self]; exact Ideal.ofBits_zero_f32

variable (m : (ℓ : Loc nD τ sig) → Buf (Elt Ideal) ℓ)

/-- Grid point s's addend to its sample's histogram (zero past the grid, where it is never used). -/
def addend (c : Dev nD) (s : ℕ) (idx : S32x32.Idx) : EReal :=
  if h : s < cfg0.N then pairCounts m c s h idx else 0

theorem resetVal_apply (c : Dev nD) (n : ℕ) (h : n < cfg0.N) (idx : S32x32.Idx) :
    resetVal m c n h idx = (fun _ => (0 : EReal)) idx + addend m c n idx := by
  unfold resetVal addend
  rw [pay1_self, dif_pos h]
  show k0_pay3 (F := Ideal) idx + _ = _
  rw [pay3_apply]

theorem stepVal_apply (c : Dev nD) (n : ℕ) (h : n < cfg0.N) (acc : S32x32.Idx → EReal) (idx : S32x32.Idx) :
    stepVal m c n h acc idx = acc idx + addend m c n idx := by
  unfold stepVal addend
  rw [pay1_self, dif_pos h]
  rfl

/-- After sample q's last point the accumulator holds, bin pair by bin pair, the sum of its eight points' counts. -/
theorem acc_last (c : Dev nD) (q : ℕ) (hq : 8 * q + 7 < cfg0.N) (idx : S32x32.Idx) :
    (outsAt0 m c (8 * q + 7) hq).2 idx = ∑ s ∈ Finset.range 8, addend m c (8 * q + s) idx := by
  have e := Pipeline.eq_accAt (fun n h => (outsAt0 m c n h).2) 8 (resetVal m c) (stepVal m c)
    (scratch_reset m c) (scratch_step m c) q 7 (by decide) hq
  rw [show (outsAt0 m c (8 * q + 7) hq).2 = Pipeline.accAt (resetVal m c) (stepVal m c) (8 * q) 7 hq from e]
  rw [Pipeline.accAt_add_apply (ι := S32x32.Idx) (β := EReal) (resetVal m c) (stepVal m c) (fun _ => 0) (addend m c) (8 * q) 7
    (fun h i => resetVal_apply m c _ h i) (fun n h acc i _ _ => stepVal_apply m c n h acc i) 7 (le_refl _) hq idx]
  exact zero_add _

end Cert.KernelIdeal.KAcc
end
-- ==== Proof.BlockCounts.lean ====
/-
  One block pair's joint counts read at a bin pair. The block's counts are the 128 rows' counts added onto zero;
  one row's counts are a product of two one-hot matrices contracted over the row's 512 pixels; each factor, read
  at a pixel, is one of the three factors of the specification's cell. So the block's counts at (i, j) are the
  sum over the block's 128 x 512 pixel pairs of the cell of each pair at (i, j).
-/
import proofs.«107822_j38654705664143_1_alg».proof.Proof.RowFold
import proofs.«107822_j38654705664143_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section
open scoped BigOperators

namespace Cert.KernelIdeal.BlockCounts
open Idealize.ShloMosaic Idealize.ShloMosaic.ValueIdx Cert.KernelIdeal Cert.KernelIdeal.Gen Cert.KernelIdeal.RowFold

/-! ## The contraction's operand indices -/

/-- The left operand's row is the output's row. -/
theorem lhs_axis0 (j : S32x32.Idx) (k : dot_S32x512_S32x512_S32x32_1_1_0_0_n_n.contr.Idx) :
    (dot_S32x512_S32x512_S32x32_1_1_0_0_n_n.lhsIdx j k 0).val = (j 0).val := rfl

/-- The left operand's column is the contraction position. -/
theorem lhs_axis1 (j : S32x32.Idx) (k : dot_S32x512_S32x512_S32x32_1_1_0_0_n_n.contr.Idx) :
    (dot_S32x512_S32x512_S32x32_1_1_0_0_n_n.lhsIdx j k 1).val = (k ⟨0, by decide⟩).val :=
  dot_S32x512_S32x512_S32x32_1_1_0_0_n_n.lhsIdx_val_of_single rfl j k

/-- The right operand's row is the output's column. -/
theorem rhs_axis0 (j : S32x32.Idx) (k : dot_S32x512_S32x512_S32x32_1_1_0_0_n_n.contr.Idx) :
    (dot_S32x512_S32x512_S32x32_1_1_0_0_n_n.rhsIdx j k 0).val = (j 1).val := rfl

/-- The right operand's column is the contraction position. -/
theorem rhs_axis1 (j : S32x32.Idx) (k : dot_S32x512_S32x512_S32x32_1_1_0_0_n_n.contr.Idx) :
    (dot_S32x512_S32x512_S32x32_1_1_0_0_n_n.rhsIdx j k 1).val = (k ⟨0, by decide⟩).val :=
  dot_S32x512_S32x512_S32x32_1_1_0_0_n_n.rhsIdx_val_of_single rfl j k

/-! ## One row's product at a bin pair -/

/-- A product of two 32 x 512 matrices contracted over their columns, onto zero: entry (i, j) is the sum over the
    512 columns of the products of row i of the first with row j of the second. -/
theorem contract_apply (A B : FVec Ideal S32x512 .bf16) (i j : Fin 32) :
    FloatOps.matmul dot_S32x512_S32x512_S32x32_1_1_0_0_n_n none A B (constant (F := Ideal) S32x32 .f32 0x00000000#32) (ix2 i j)
      = ∑ l : Fin 512, A (ix2 i l) * B (ix2 j l) := by
  rw [Ideal.matmul_constant_zero_apply]
  rw [← Equiv.sum_comp (contrEquiv1 dot_S32x512_S32x512_S32x32_1_1_0_0_n_n 512 rfl rfl).symm]
  refine Finset.sum_congr rfl fun l _ => ?_
  have hk := contrEquiv1_symm_val dot_S32x512_S32x512_S32x32_1_1_0_0_n_n 512 rfl rfl l
  have hl : dot_S32x512_S32x512_S32x32_1_1_0_0_n_n.lhsIdx (ix2 i j)
      ((contrEquiv1 dot_S32x512_S32x512_S32x32_1_1_0_0_n_n 512 rfl rfl).symm l) = ix2 i l := by
    funext a
    match a with
    | ⟨0, _⟩ => exact Fin.ext (lhs_axis0 _ _)
    | ⟨1, _⟩ => exact Fin.ext ((lhs_axis1 _ _).trans hk)
  have hr : dot_S32x512_S32x512_S32x32_1_1_0_0_n_n.rhsIdx (ix2 i j)
      ((contrEquiv1 dot_S32x512_S32x512_S32x32_1_1_0_0_n_n 512 rfl rfl).symm l) = ix2 j l := by
    funext a
    match a with
    | ⟨0, _⟩ => exact Fin.ext (rhs_axis0 _ _)
    | ⟨1, _⟩ => exact Fin.ext ((rhs_axis1 _ _).trans hk)
  rw [hl, hr]

/-- A 32 x 1 column broadcast along 512 columns reads, at (i, l), the column at i. -/
theorem broadcastTo_col_apply {α : Type} (v : S32x1.Idx → α) (i : Fin 32) (l : Fin 512) :
    broadcastTo S32x512 v broadcasts_S32x1_S32x512 (ix2 i l) = v (ix2 i (0 : Fin 1)) := by
  refine broadcastTo_apply v broadcasts_S32x1_S32x512 (ix2 i l) (ix2 i (0 : Fin 1)) fun ax => ?_
  match ax with
  | ⟨0, _⟩ => rfl
  | ⟨1, _⟩ => rfl

/-- The column 0, 1, …, 31 at i is the word i. -/
theorem column_apply (i : Fin 32) :
    iota .tc S32x1 32 [0] iota_S32x1_d0_w32 (ix2 i (0 : Fin 1)) = BitVec.ofNat 32 i.val :=
  iota_single_apply .tc S32x1 32 0 iota_S32x1_d0_w32 (ix2 i (0 : Fin 1))

/-- The one-hot matrix of a row's bins at (i, l): 1 where pixel l's bin is i. -/
theorem oneHot_apply (b : IVec S1x512 32) (i : Fin 32) (l : Fin 512) :
    oneHot (F := Ideal) (iota .tc S32x1 32 [0] iota_S32x1_d0_w32) b (ix2 i l)
      = Cert.Hist.bit01 (IntOp.cmpi .eq (BitVec.ofNat 32 i.val) (b (ix2 (0 : Fin 1) l))) := by
  unfold oneHot
  rw [truncf_apply, sitofp_apply, extui_apply]
  show FloatOps.sitofp (F := Ideal) .f32 ((IntOp.cmpi .eq (broadcastTo S32x512 (iota .tc S32x1 32 [0] iota_S32x1_d0_w32) broadcasts_S32x1_S32x512 (ix2 i l))
      (broadcastTo S32x512 b broadcasts_S1x512_S32x512 (ix2 i l))).setWidth 32) = _
  rw [broadcastTo_col_apply, column_apply, broadcastTo_1b_ab_apply]
  rfl

/-- One row's counts at (i, j): the sum over the row's pixel pairs of each pair's cell. -/
theorem rowCounts_apply (xr yr : FVec Ideal S1x512 .f32) (i j : Fin 32) :
    rowCounts (F := Ideal) (iota .tc S32x1 32 [0] iota_S32x1_d0_w32) xr yr (ix2 i j)
      = ∑ l : Fin 512, Cert.Hist.cell (xr (ix2 (0 : Fin 1) l)) (yr (ix2 (0 : Fin 1) l)) i j := by
  unfold rowCounts
  refine (contract_apply _ _ i j).trans ?_
  refine Finset.sum_congr rfl fun l _ => ?_
  rw [mulf_apply, oneHot_apply, oneHot_apply, broadcastTo_1b_ab_apply, truncf_apply]
  rfl

/-! ## The rows added up -/

/-- Adding one more row: the counts of the first n + 1 rows are those of the first n plus row n's. -/
theorem accUpTo_succ (v5 : IVec S32x1 32) (v7 v9 : FVec Ideal S128x512 .f32) (n : ℕ) (h : n + 1 ≤ 128) :
    accUpTo (F := Ideal) v5 v7 v9 (n + 1) h
      = addf (accUpTo (F := Ideal) v5 v7 v9 n (Nat.le_of_succ_le h))
          (rowCounts (F := Ideal) v5 (extractStridedSlice S1x512 ![n, 0] v7 (rowSlices n h))
            (extractStridedSlice S1x512 ![n, 0] v9 (rowSlices n h))) := rfl

/-- The first n rows' counts at (i, j): the sum over those rows' pixel pairs. -/
theorem accUpTo_apply (v7 v9 : FVec Ideal S128x512 .f32) (i j : Fin 32) (n : ℕ) : ∀ h : n ≤ 128,
    accUpTo (F := Ideal) (iota .tc S32x1 32 [0] iota_S32x1_d0_w32) v7 v9 n h (ix2 i j)
      = ∑ r : Fin n, ∑ l : Fin 512, Cert.Hist.cell (v7 (ix2 (Fin.castLE h r) l)) (v9 (ix2 (Fin.castLE h r) l)) i j := by
  induction n with
  | zero =>
    intro h
    show Ideal.ofBits .f32 0x00000000#32 = _
    rw [Ideal.ofBits_zero_f32]
    exact (Finset.sum_empty).symm
  | succ n ih =>
    intro h
    have h7 : ∀ l : Fin 512, extractStridedSlice S1x512 ![n, 0] v7 (rowSlices n h) (ix2 (0 : Fin 1) l)
        = v7 (ix2 (Fin.castLE h (Fin.last n)) l) := fun l =>
      slice2_axis0_apply n v7 (rowSlices n h) (0 : Fin 1) l (Fin.castLE h (Fin.last n)) (by simp)
    have h9 : ∀ l : Fin 512, extractStridedSlice S1x512 ![n, 0] v9 (rowSlices n h) (ix2 (0 : Fin 1) l)
        = v9 (ix2 (Fin.castLE h (Fin.last n)) l) := fun l =>
      slice2_axis0_apply n v9 (rowSlices n h) (0 : Fin 1) l (Fin.castLE h (Fin.last n)) (by simp)
    rw [accUpTo_succ, addf_apply, ih (Nat.le_of_succ_le h), rowCounts_apply]
    simp only [h7, h9]
    exact (Fin.sum_univ_castSucc
      (fun r : Fin (n + 1) => ∑ l : Fin 512, Cert.Hist.cell (v7 (ix2 (Fin.castLE h r) l)) (v9 (ix2 (Fin.castLE h r) l)) i j)).symm

/-! ## The block -/

/-- The 128 x 512 view of a staged 1 x 1 x 128 x 512 block reads the block at (0, 0, r, l). -/
theorem block_apply (x : Vec Ideal S1x1x128x512 .f32) (r : Fin 128) (l : Fin 512) :
    shapeCast S128x512 x shapeCasts_S1x1x128x512_S128x512 (ix2 r l) = x (ix4 0 0 r l) := by
  refine shapeCast_apply x shapeCasts_S1x1x128x512_S128x512 (ix2 r l) (ix4 0 0 r l) ?_
  rw [Shape.rowMajor_val_two, Shape.rowMajor_val_four]
  show ((0 * 1 + 0) * 128 + r.val) * 512 + l.val = r.val * 512 + l.val
  omega

/-- One block pair's joint counts at the bin pair (i, j): the sum over the block's 128 x 512 pixel pairs of each
    pair's cell at (i, j). -/
theorem blockCounts_apply (x0 x1 : Vec Ideal S1x1x128x512 .f32) (i j : Fin 32) :
    blockCounts (F := Ideal) x0 x1 (ix2 i j)
      = ∑ r : Fin 128, ∑ l : Fin 512, Cert.Hist.cell (x0 (ix4 0 0 r l)) (x1 (ix4 0 0 r l)) i j := by
  unfold blockCounts
  rw [accUpTo_apply]
  refine Finset.sum_congr rfl fun r _ => Finset.sum_congr rfl fun l _ => ?_
  rw [block_apply, block_apply]
  rfl

end Cert.KernelIdeal.BlockCounts
end
-- ==== Proof.BlockRead.lean ====
/-
  Where a staged block sits in its image, and how a sample's blocks tile it.
  The grid runs row-major over (32 samples, 2 channels, 4 height chunks): point t is sample t / 8, channel
  t / 4 % 2, chunk t % 4. Each input window stages the 128 x 512 block at rows 128 (t % 4) … 128 (t % 4) + 127 of that
  sample's channel, so element (r, l) of the staged block is the image's element (t / 8, t / 4 % 2, 128 (t % 4) + r, l).
  The eight blocks of a sample, s = 0 … 7, are the channels s / 4 and chunks s % 4: together they meet each of the
  sample's 2 x 512 x 512 pixels exactly once, so summing a pixel's contribution block by block is the histogram.
-/
import proofs.«107822_j38654705664143_1_alg».proof.Proof.Gen.KernelIdeal.Frame
import proofs.«107822_j38654705664143_1_alg».proof.Proof.Spec
import Idealize.ShloMosaic.Lib.Pipeline.Value
import Mathlib.Algebra.BigOperators.Fin
import Mathlib.Algebra.BigOperators.Group.Finset.Basic
import Mathlib.Data.Fintype.BigOperators

noncomputable section
namespace Cert.KernelIdeal.BlockRead
open Idealize.ShloMosaic Idealize.ShloMosaic.TcCoe Idealize.ShloMosaic.ValueIdx Idealize.SL.Sem
open Cert.KernelIdeal Cert.KernelIdeal.Gen Cert.Hist

variable (m : (ℓ : Loc nD τ sig) → Buf (Elt Ideal) ℓ)

/-! ## The block index of each input window at a grid point -/

/-- Window 0's block index at point t is (t / 8, t / 4 % 2, t % 4, 0): decided over the 256 points. -/
theorem index0 : ∀ t : Fin cfg0.N, win0_0.index t (0 : Fin 4) = t.val / 8 ∧ win0_0.index t (1 : Fin 4) = t.val / 4 % 2
    ∧ win0_0.index t (2 : Fin 4) = t.val % 4 ∧ win0_0.index t (3 : Fin 4) = 0 :=
  (by decide +kernel : ∀ t : Fin grid0.N, win0_0.index t (0 : Fin 4) = t.val / 8 ∧ win0_0.index t (1 : Fin 4) = t.val / 4 % 2
    ∧ win0_0.index t (2 : Fin 4) = t.val % 4 ∧ win0_0.index t (3 : Fin 4) = 0)

/-- Window 1's block index at point t is the same. -/
theorem index1 : ∀ t : Fin cfg0.N, win0_1.index t (0 : Fin 4) = t.val / 8 ∧ win0_1.index t (1 : Fin 4) = t.val / 4 % 2
    ∧ win0_1.index t (2 : Fin 4) = t.val % 4 ∧ win0_1.index t (3 : Fin 4) = 0 :=
  (by decide +kernel : ∀ t : Fin grid0.N, win0_1.index t (0 : Fin 4) = t.val / 8 ∧ win0_1.index t (1 : Fin 4) = t.val / 4 % 2
    ∧ win0_1.index t (2 : Fin 4) = t.val % 4 ∧ win0_1.index t (3 : Fin 4) = 0)

/-- A grid point is below 256. -/
theorem point_lt (t : Fin cfg0.N) : t.val < 256 := lt_of_lt_of_eq t.isLt (show cfg0.N = 256 from N_0)

/-! ## The staged blocks read at an index -/

/-- Element (r, l) of the first image's block at point t is the image at sample t / 8, channel t / 4 % 2,
    row 128 (t % 4) + r, column l. -/
theorem iblk0_apply (c : Dev nD) (t : Fin cfg0.N) (r : Fin 128) (l : Fin 512) :
    (iblk (F := Ideal) m c 0 t : S1x1x128x512.Idx → EReal) (ix4 0 0 r l)
      = (m ((c : Thread nD τ).loc main_arg0) : SImg.Idx → EReal)
          (ix4 ⟨t.val / 8, by have := point_lt t; omega⟩ ⟨t.val / 4 % 2, Nat.mod_lt _ (by decide)⟩
            ⟨t.val % 4 * 128 + r.val, by have := r.isLt; omega⟩ l) := by
  obtain ⟨e0, e1, e2, e3⟩ := index0 t
  unfold iblk
  rw [View.read_apply]
  show V m c main_arg0 _ = m ((c : Thread nD τ).loc main_arg0) _
  unfold V
  congr 1
  funext a
  apply Fin.ext
  match a with
  | ⟨0, _⟩ => show win0_0.index t (0 : Fin 4) * 1 + 1 * 0 = t.val / 8; omega
  | ⟨1, _⟩ => show win0_0.index t (1 : Fin 4) * 1 + 1 * 0 = t.val / 4 % 2; omega
  | ⟨2, _⟩ => show win0_0.index t (2 : Fin 4) * 128 + 1 * r.val = t.val % 4 * 128 + r.val; omega
  | ⟨3, _⟩ => show win0_0.index t (3 : Fin 4) * 512 + 1 * l.val = l.val; omega

/-- Element (r, l) of the second image's block at point t is that image at the same place. -/
theorem iblk1_apply (c : Dev nD) (t : Fin cfg0.N) (r : Fin 128) (l : Fin 512) :
    (iblk (F := Ideal) m c 1 t : S1x1x128x512.Idx → EReal) (ix4 0 0 r l)
      = (m ((c : Thread nD τ).loc main_arg1) : SImg.Idx → EReal)
          (ix4 ⟨t.val / 8, by have := point_lt t; omega⟩ ⟨t.val / 4 % 2, Nat.mod_lt _ (by decide)⟩
            ⟨t.val % 4 * 128 + r.val, by have := r.isLt; omega⟩ l) := by
  obtain ⟨e0, e1, e2, e3⟩ := index1 t
  unfold iblk
  rw [View.read_apply]
  show V m c main_arg1 _ = m ((c : Thread nD τ).loc main_arg1) _
  unfold V
  congr 1
  funext a
  apply Fin.ext
  match a with
  | ⟨0, _⟩ => show win0_1.index t (0 : Fin 4) * 1 + 1 * 0 = t.val / 8; omega
  | ⟨1, _⟩ => show win0_1.index t (1 : Fin 4) * 1 + 1 * 0 = t.val / 4 % 2; omega
  | ⟨2, _⟩ => show win0_1.index t (2 : Fin 4) * 128 + 1 * r.val = t.val % 4 * 128 + r.val; omega
  | ⟨3, _⟩ => show win0_1.index t (3 : Fin 4) * 512 + 1 * l.val = l.val; omega

/-! ## A sample's eight blocks tile its pixels -/

/-- Block s of a sample and row r inside it name channel s / 4 and row 128 (s % 4) + r; conversely channel c and
    row h sit in block 4 c + h / 128 at row h % 128. -/
def blockEquiv : Fin 8 × Fin 128 ≃ Fin 2 × Fin 512 where
  toFun p := (⟨p.1.val / 4, by have := p.1.isLt; omega⟩, ⟨p.1.val % 4 * 128 + p.2.val, by have := p.2.isLt; omega⟩)
  invFun p := (⟨p.1.val * 4 + p.2.val / 128, by have := p.1.isLt; have := p.2.isLt; omega⟩, ⟨p.2.val % 128, Nat.mod_lt _ (by decide)⟩)
  left_inv p := by
    have h1 := p.1.isLt; have h2 := p.2.isLt
    refine Prod.ext (Fin.ext ?_) (Fin.ext ?_)
    · show p.1.val / 4 * 4 + (p.1.val % 4 * 128 + p.2.val) / 128 = p.1.val; omega
    · show (p.1.val % 4 * 128 + p.2.val) % 128 = p.2.val; omega
  right_inv p := by
    have h1 := p.1.isLt; have h2 := p.2.isLt
    refine Prod.ext (Fin.ext ?_) (Fin.ext ?_)
    · show (p.1.val * 4 + p.2.val / 128) / 4 = p.1.val; omega
    · show (p.1.val * 4 + p.2.val / 128) % 4 * 128 + p.2.val % 128 = p.2.val; omega

/-- Summing over the eight blocks and the 128 rows of each is summing over the 2 channels and the 512 rows of each:
    (s, r) ↦ (s / 4, 128 (s % 4) + r) is a bijection. -/
theorem sum_blocks {M : Type*} [AddCommMonoid M] (g : Fin 2 → Fin 512 → M) :
    (∑ s ∈ Finset.range 8, ∑ r : Fin 128,
        g ⟨s / 4 % 2, Nat.mod_lt _ (by decide)⟩ ⟨(s % 4 * 128 + r.val) % 512, Nat.mod_lt _ (by decide)⟩)
      = ∑ c : Fin 2, ∑ h : Fin 512, g c h := by
  rw [Finset.sum_range, ← Fintype.sum_prod_type', ← Fintype.sum_prod_type']
  refine Fintype.sum_equiv blockEquiv _ _ (fun p => ?_)
  have h1 := p.1.isLt; have h2 := p.2.isLt
  congr 1 <;> apply Fin.ext
  · show p.1.val / 4 % 2 = p.1.val / 4; omega
  · show (p.1.val % 4 * 128 + p.2.val) % 512 = p.1.val % 4 * 128 + p.2.val; omega

/-- The joint histogram of sample q, summed block by block: the eight block pairs of the sample, each 128 rows of
    512 pixel pairs, contribute every pixel pair of its 2 channels of 512 x 512 pixels once. -/
theorem sample_sum (X Y : SImg.Idx → EReal) (q i j : Fin 32) :
    (∑ s ∈ Finset.range 8, ∑ r : Fin 128, ∑ l : Fin 512,
        cell (X (ix4 q ⟨s / 4 % 2, Nat.mod_lt _ (by decide)⟩ ⟨(s % 4 * 128 + r.val) % 512, Nat.mod_lt _ (by decide)⟩ l))
             (Y (ix4 q ⟨s / 4 % 2, Nat.mod_lt _ (by decide)⟩ ⟨(s % 4 * 128 + r.val) % 512, Nat.mod_lt _ (by decide)⟩ l)) i j)
      = hist X Y q i j :=
  sum_blocks (fun c h => ∑ l : Fin 512, cell (X (ix4 q c h l)) (Y (ix4 q c h l)) i j)

end Cert.KernelIdeal.BlockRead
end
-- ==== Proof.KHist.lean ====
/-
  A sample's joint histogram from its eight grid points. Point t stages rows (t % 4) · 128 … + 127 of channel
  t / 4 % 2 of sample t / 8 of each image; the eight points of a sample cover its 2 x 512 rows once, so the sum of
  their block pairs' counts is the sample's joint histogram.
-/
import proofs.«107822_j38654705664143_1_alg».proof.Proof.KAcc
import proofs.«107822_j38654705664143_1_alg».proof.Proof.BlockCounts
import proofs.«107822_j38654705664143_1_alg».proof.Proof.BlockRead
import proofs.«107822_j38654705664143_1_alg».proof.Proof.Spec

set_option maxRecDepth 16384

noncomputable section
open scoped BigOperators
namespace Cert.KernelIdeal.KHist
open Idealize.ShloMosaic Idealize.ShloMosaic.TcCoe Idealize.ShloMosaic.ValueIdx
open Idealize.SL Idealize.SL.Sem
open Cert.KernelIdeal Cert.KernelIdeal.Gen Cert.KernelIdeal.RowFold Cert.KernelIdeal.Points Cert.KernelIdeal.KAcc
open Cert.Hist

variable (m : (ℓ : Loc nD τ sig) → Buf (Elt Ideal) ℓ)

/-- The two image batches as the program finds them. -/
abbrev imgX (c : Dev nD) : SImg.Idx → EReal := m ((c : Thread nD τ).loc main_arg0)
abbrev imgY (c : Dev nD) : SImg.Idx → EReal := m ((c : Thread nD τ).loc main_arg1)

theorem N256 : cfg0.N = 256 := N_0

/-- The block pair staged at point n, each block at its literal type. -/
abbrev xblk (c : Dev nD) (n : ℕ) (h : n < cfg0.N) : Vec Ideal S1x1x128x512 .f32 := iblk m c 0 ⟨n, h⟩
abbrev yblk (c : Dev nD) (n : ℕ) (h : n < cfg0.N) : Vec Ideal S1x1x128x512 .f32 := iblk m c 1 ⟨n, h⟩

/-- The counts of point n's block pair at a bin pair: its 128 x 512 pixel pairs read off the two image batches. -/
theorem pair_apply (c : Dev nD) (n : ℕ) (hlt : n < cfg0.N) (i j : Fin 32) :
    pairCounts m c n hlt (ix2 i j)
      = ∑ r : Fin 128, ∑ l : Fin 512,
          cell (imgX m c (ix4 ⟨n / 8, by have h := lt_of_lt_of_eq hlt N256; omega⟩ ⟨n / 4 % 2, Nat.mod_lt _ (by decide)⟩
                  ⟨n % 4 * 128 + r.val, by have h := r.isLt; omega⟩ l))
               (imgY m c (ix4 ⟨n / 8, by have h := lt_of_lt_of_eq hlt N256; omega⟩ ⟨n / 4 % 2, Nat.mod_lt _ (by decide)⟩
                  ⟨n % 4 * 128 + r.val, by have h := r.isLt; omega⟩ l)) i j :=
  (BlockCounts.blockCounts_apply (xblk m c n hlt) (yblk m c n hlt) i j).trans
    (Finset.sum_congr rfl fun r _ => Finset.sum_congr rfl fun l _ =>
      congrArg₂ (fun a b => cell a b i j) (BlockRead.iblk0_apply m c ⟨n, hlt⟩ r l) (BlockRead.iblk1_apply m c ⟨n, hlt⟩ r l))

/-- The accumulator does not depend on how the point's number is written. -/
theorem outs_congr (c : Dev nD) (u t : ℕ) (hu : u < cfg0.N) (ht : t < cfg0.N) (e : u = t) :
    (outsAt0 m c u hu).2 = (outsAt0 m c t ht).2 := by subst e; rfl

/-- Equal coordinates, equal pixel index. -/
theorem ix4_congr (l : Fin 512) (a1 b1 : Fin 32) (a2 b2 : Fin 2) (a3 b3 : Fin 512)
    (h1 : a1.val = b1.val) (h2 : a2.val = b2.val) (h3 : a3.val = b3.val) : (ix4 a1 a2 a3 l : SImg.Idx) = ix4 b1 b2 b3 l := by
  obtain rfl := Fin.ext h1; obtain rfl := Fin.ext h2; obtain rfl := Fin.ext h3; rfl

/-- After a sample's last point (t % 8 = 7) the accumulator is the sample's joint histogram. -/
theorem hist_last (c : Dev nD) (t : Fin cfg0.N) (h7 : t.val % 8 = 7) (i j : Fin 32) :
    (outsAt0 m c t.val t.isLt).2 (ix2 i j)
      = hist (imgX m c) (imgY m c) ⟨t.val / 8 % 32, Nat.mod_lt _ (by decide)⟩ i j := by
  have hN : t.val < 256 := lt_of_lt_of_eq t.isLt N256
  have e : 8 * (t.val / 8) + 7 = t.val := by omega
  have hq : 8 * (t.val / 8) + 7 < cfg0.N := by rw [e]; exact t.isLt
  refine (congrFun (outs_congr m c _ _ hq t.isLt e).symm (ix2 i j)).trans ?_
  refine (acc_last m c (t.val / 8) hq (ix2 i j)).trans ?_
  refine Eq.trans ?_ (BlockRead.sample_sum (imgX m c) (imgY m c) ⟨t.val / 8 % 32, Nat.mod_lt _ (by decide)⟩ i j)
  refine Finset.sum_congr rfl fun s hs => ?_
  have hs8 : s < 8 := Finset.mem_range.mp hs
  have hlt : 8 * (t.val / 8) + s < cfg0.N := lt_of_lt_of_eq (by omega : 8 * (t.val / 8) + s < 256) N256.symm
  have hadd : addend m c (8 * (t.val / 8) + s) (ix2 i j) = pairCounts m c (8 * (t.val / 8) + s) hlt (ix2 i j) := by
    unfold addend; exact dif_pos hlt
  refine hadd.trans ((pair_apply m c _ hlt i j).trans ?_)
  refine Finset.sum_congr rfl fun r _ => Finset.sum_congr rfl fun l _ => ?_
  have hr : r.val < 128 := r.isLt
  have eidx := ix4_congr l ⟨(8 * (t.val / 8) + s) / 8, by omega⟩ ⟨t.val / 8 % 32, Nat.mod_lt _ (by decide)⟩
      ⟨(8 * (t.val / 8) + s) / 4 % 2, Nat.mod_lt _ (by decide)⟩ ⟨s / 4 % 2, Nat.mod_lt _ (by decide)⟩
      ⟨(8 * (t.val / 8) + s) % 4 * 128 + r.val, by omega⟩ ⟨(s % 4 * 128 + r.val) % 512, Nat.mod_lt _ (by decide)⟩
      (by show (8 * (t.val / 8) + s) / 8 = t.val / 8 % 32; omega) (by show (8 * (t.val / 8) + s) / 4 % 2 = s / 4 % 2; omega)
      (by show (8 * (t.val / 8) + s) % 4 * 128 + r.val = (s % 4 * 128 + r.val) % 512; omega)
  exact congrArg₂ (fun a b => cell a b i j) (congrArg (imgX m c) eidx) (congrArg (imgY m c) eidx)

end Cert.KernelIdeal.KHist
end
-- ==== Proof.KFinal.lean ====
import proofs.«107822_j38654705664143_1_alg».proof.Proof.Gen.KernelIdeal.Skeleton
import proofs.«107822_j38654705664143_1_alg».proof.Proof.Spec
import Idealize.ShloMosaic.Lib.ValueIdx
import Idealize.ShloMosaic.Lib.Pipeline.Value
import Idealize.ShloMosaic.Lib.ValueLayout
import Idealize.ShloMosaic.PureOps.Ideal.Laws

/-
  The kernel's finalization, read at an index over the extended reals.

  From the 32 x 32 histogram h the kernel takes the total T = Σ h, the normalised histogram p = h / T, its row sums
  px and column sums py, and sums p log (p / (px py)) over the cells with p > 0; every entry of the 1 x 8 x 128 block it
  stores is that one number, which is the mutual information of h.
-/

noncomputable section

open scoped BigOperators

namespace Cert.KernelIdeal.KFinal

open Idealize.ShloMosaic Idealize.ShloMosaic.ValueIdx Cert.KernelIdeal Cert.KernelIdeal.Gen

/-! ## Layout steps with a trailing or leading unit axis -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three sums -/

/-- The sum of all 1024 entries: cast to 1 x 32 x 32, reduced over both axes into one entry, and that entry read. -/
theorem total_apply (v : FVec Ideal S32x32 .f32) (hφ : FTy.f32 = FTy.f32 ∨ FTy.f32 = FTy.bf16)
    (hacc : (0x00000000#32 : BitVec 32) = 0x00000000#32) :
    extractAt ![0, 0, 0]
        (shapeCast S1x1x1
          (multiReduction (F := Ideal) .add [1, 2] S1 (shapeCast S1x32x32 v shapeCasts_S32x32_S1x32x32) 0x00000000#32
            reduces_S1x32x32_S1 hφ hacc)
          shapeCasts_S1_S1x1x1)
        inpos_S1x1x1_p0_0_0
      = ∑ i : Fin 32, ∑ j : Fin 32, v (ix2 i j) := by
  unfold extractAt
  rw [shapeCast_apply _ shapeCasts_S1_S1x1x1 _ (ix1 (0 : Fin 1)) (by decide)]
  refine (Ideal.multiReduction_add_total _ _ reduces_S1x32x32_S1 (by decide) _ _ _).trans ?_
  unfold shapeCast
  rw [Equiv.sum_comp (Shape.reshapeEquiv _) v, sum_idx2]

/-- A row sum: the reduction over the second axis, at `i`. -/
theorem rowSum_apply (p : FVec Ideal S32x32 .f32) (hφ : FTy.f32 = FTy.f32 ∨ FTy.f32 = FTy.bf16)
    (hacc : (0x00000000#32 : BitVec 32) = 0x00000000#32) (i : Fin 32) :
    multiReduction (F := Ideal) .add [1] S32 p 0x00000000#32 reduces_S32x32_S32 hφ hacc (ix1 i)
      = ∑ k : Fin 32, p (ix2 i k) := by
  refine (Ideal.multiReduction_add_single p _ reduces_S32x32_S32 _ _ (ix1 i)).trans ?_
  show ∑ k : Fin 32, _ = _
  refine Fintype.sum_congr _ _ fun k => congrArg p (funext fun a => ?_)
  match a with
  | ⟨0, _⟩ => rfl
  | ⟨1, _⟩ => rfl

/-- A column sum: the reduction over the first axis, at `j`. -/
theorem colSum_apply (p : FVec Ideal S32x32 .f32) (hφ : FTy.f32 = FTy.f32 ∨ FTy.f32 = FTy.bf16)
    (hacc : (0x00000000#32 : BitVec 32) = 0x00000000#32) (j : Fin 32) :
    multiReduction (F := Ideal) .add [0] S32 p 0x00000000#32 reduces_S32x32_S32_2 hφ hacc (ix1 j)
      = ∑ k : Fin 32, p (ix2 k j) := by
  refine (Ideal.multiReduction_add_single p _ reduces_S32x32_S32_2 _ _ (ix1 j)).trans ?_
  show ∑ k : Fin 32, _ = _
  refine Fintype.sum_congr _ _ fun k => congrArg p (funext fun a => ?_)
  match a with
  | ⟨0, _⟩ => rfl
  | ⟨1, _⟩ => rfl

/-! ## The payloads -/

/-- The histogram carried between grid points is stored as it is. -/
theorem pay1_eq (h : FVec Ideal S32x32 .f32) : k0_pay1 (F := Ideal) h = h := by
  unfold k0_pay1
  exact shapeCast_self _ _

/-- The logarithm of a vector, at an index. -/
theorem log_apply {s : Shape} {φ : FTy} (a : FVec Ideal s φ) (i : s.Idx) : log a i = Ideal.log (a i) := rfl

/-- Every entry of the stored block is the mutual information of the histogram. -/
theorem finalize_apply (h : Vec Ideal S32x32 .f32) (y : S1x8x128.Idx) :
    k0_pay2 (F := Ideal) h y = Cert.Hist.mi (fun i j => h (ix2 i j)) := by
  unfold k0_pay2
  refine (total_apply _ (.inl rfl) rfl).trans ?_
  unfold Cert.Hist.mi
  refine Fintype.sum_congr _ _ fun i => Fintype.sum_congr _ _ fun j => ?_
  simp only [select_apply, mulf_apply, divf_apply, cmpf_apply, log_apply, broadcast_apply,
    broadcastTo_a1_ab_apply, broadcastTo_1b_ab_apply, shapeCast_a_a1_apply, shapeCast_a_1a_apply]
  rw [rowSum_apply, colSum_apply]
  simp only [divf_apply, broadcast_apply]
  rw [total_apply]
  rfl

end Cert.KernelIdeal.KFinal
-- ==== Proof.KTail.lean ====
/-
  The host operations after the region: the slice [:, 0, 0] of the output array, its reshape to 32 entries, their sum,
  the division by 32 and the negation, read at the extended reals.
-/
import proofs.«107822_j38654705664143_1_alg».proof.Proof.Gen.KernelIdeal.Frame
import Idealize.ShloMosaic.Lib.StableHlo.Run
import Idealize.ShloMosaic.Lib.Pipeline.Value
import Idealize.ShloMosaic.Lib.Pipeline.FrameSuffix
import Idealize.ShloMosaic.Lib.ValueIdx
import Idealize.ShloMosaic.PureOps.Ideal.Laws

noncomputable section
namespace Cert.KernelIdeal.KTail
open Idealize.ShloMosaic Idealize.ShloMosaic.ValueIdx Idealize.SL.Sem
open Cert.KernelIdeal Cert.KernelIdeal.Gen

variable (m : (ℓ : Loc nD τ sig) → Buf (Elt Ideal) ℓ)

/-- The one-axis index set of 32 entries is `Fin 32`. -/
def idx32 : S32.Idx ≃ Fin 32 where
  toFun i := i 0
  invFun b := ix1 b
  left_inv i := (eq_ix1 i).symm
  right_inv _ := rfl

/-- Entry `b` of the reshaped slice [:, 0, 0] is the array's entry (b, 0, 0). -/
theorem slice_apply (O : FVec Ideal S32x8x128 .f32) (b : Fin 32) :
    shapeCast S32 (extractStridedSlice S32x1x1 ![0, 0, 0] O slices_S32x8x128_S32x1x1_0_0_0) shapeCasts_S32x1x1_S32 (ix1 b)
      = O (ix3 b 0 0) := by
  rw [shapeCast_apply _ shapeCasts_S32x1x1_S32 (ix1 b) (ix3 b 0 0) (by
      rw [Shape.rowMajor_val_three, Shape.rowMajor_val_one]; simp)]
  exact extractStridedSlice_apply ![0, 0, 0] O slices_S32x8x128_S32x1x1_0_0_0 (ix3 b 0 0) (ix3 b 0 0) (by
      intro a; fin_cases a <;> simp)

/-- What the program's last seven operations leave in its result: minus the 32nd part of the sum of the output
    array's entries (b, 0, 0). -/
theorem tail_apply (c : Dev nD) (O : FVec Ideal S32x8x128 .f32)
    (hO : (dats (F := Ideal) m 0 c).arrAt 2 cfg0.N = O) :
    Pipeline.afterTail₀ cfgs (dats (F := Ideal) m) 0 (V0 m) [hostOps1] c main_v5
      = fun (_ : S_.Idx) => -(Ideal.div (∑ b : Fin 32, O (ix3 b 0 0)) (Ideal.ofBits .f32 0x42000000#32)) := by
  unfold Pipeline.afterTail₀
  show StableHlo.after hostOps1 _ (Proc.devRef .tc main_v5) = _
  after_results
  have hW : Pipeline.withArrays (cfgs 0).spec c (V0 m c) (fun w => (dats (F := Ideal) m 0 c).arrAt w (cfgs 0).N)
      (Proc.devRef .tc main_v0) = O :=
    (Pipeline.withArrays_arr spec0 launch0.win.arr_inj c _ _ 2).trans hO
  rw [hW]
  funext j
  simp only [Host.negf, Host.divf, Host.reduceAdd, Ideal.hostNegf_def, Ideal.negf_def, Ideal.hostDivf_def,
    Ideal.hostReduceAdd_def, constant_apply]
  rw [Ideal.hostReduceAdd_total reducesTo_S32_S_d0 (fun b => b.elim0), Ideal.ofBits_zero_f32, zero_add]
  refine congrArg (fun s => -(Ideal.div s (Ideal.ofBits .f32 0x42000000#32))) ?_
  refine (Fintype.sum_equiv idx32.symm _ _ (fun b => ?_)).symm
  exact (slice_apply O b).symm

/-- info: 'Cert.KernelIdeal.KTail.tail_apply' depends on axioms: [propext, Classical.choice, Quot.sound] -/
#guard_msgs in #print axioms tail_apply

end Cert.KernelIdeal.KTail
-- ==== Proof.KValue.lean ====
/-
  The idealized kernel's result. After a sample's last grid point the accumulator holds that sample's joint
  histogram; the output block written there is its mutual information, the same number at all 8 x 128 positions;
  the 32 written blocks tile the output array; and the host operations after the call take position (b, 0, 0) of
  each, sum, divide by 32 and negate.
-/
import proofs.«107822_j38654705664143_1_alg».proof.Proof.KHist
import proofs.«107822_j38654705664143_1_alg».proof.Proof.KFinal
import proofs.«107822_j38654705664143_1_alg».proof.Proof.KTail
import proofs.«107822_j38654705664143_1_alg».proof.Proof.Spec
import Idealize.ShloMosaic.Lib.Pipeline.Value

set_option maxRecDepth 16384

noncomputable section
open scoped BigOperators
namespace Cert.KernelIdeal.KValue
open Idealize.ShloMosaic Idealize.ShloMosaic.TcCoe Idealize.ShloMosaic.ValueIdx
open Idealize.SL Idealize.SL.Sem
open Cert.KernelIdeal Cert.KernelIdeal.Gen Cert.KernelIdeal.RowFold Cert.KernelIdeal.Points Cert.KernelIdeal.KAcc
open Cert.Hist Cert.KernelIdeal.KHist

variable (m : (ℓ : Loc nD τ sig) → Buf (Elt Ideal) ℓ) (ρ : Dev nD → PrngReg)

/-- Sample n's mutual information (n read modulo 32). -/
def sampleMI (c : Dev nD) (n : ℕ) : EReal := mi (hist (imgX m c) (imgY m c) ⟨n % 32, Nat.mod_lt _ (by decide)⟩)

/-- What the output array ends with: at every position of sample b's 8 x 128 block, that sample's mutual information. -/
def outArr (c : Dev nD) : FVec Ideal S32x8x128 .f32 := fun idx => sampleMI m c (idx 0).val

/-- The output window's block index at point t is (t / 8, 0, 0), and its blocks are whole 1 x 8 x 128 blocks. -/
theorem win2_facts : ∀ t : Fin cfg0.N, win0_2.index t 0 = t.val / 8 ∧ win0_2.index t 1 = 0 ∧ win0_2.index t 2 = 0
    ∧ win0_2.xsize (grid0.coords t) 0 = 1 ∧ win0_2.xsize (grid0.coords t) 1 = 8 ∧ win0_2.xsize (grid0.coords t) 2 = 128 :=
  (by decide +kernel : ∀ t : Fin grid0.N, win0_2.index t 0 = t.val / 8 ∧ win0_2.index t 1 = 0 ∧ win0_2.index t 2 = 0
    ∧ win0_2.xsize (grid0.coords t) 0 = 1 ∧ win0_2.xsize (grid0.coords t) 1 = 8 ∧ win0_2.xsize (grid0.coords t) 2 = 128)

/-- What a sample's last point writes back, position by position: the sample's mutual information. -/
theorem flushed_val (c : Dev nD) (t : Fin cfg0.N) (h7 : t.val % 8 = 7) (y : ((cfg0.win 2).xblock (grid0.coords t)).Idx) :
    (dats m 0 c).flushed 2 t y = sampleMI m c (t.val / 8) := by
  have h1 : (dats m 0 c).after 2 t = k0_pay2 (F := Ideal) ((outsAt0 m c t.val t.isLt).2) :=
    (after0_2 m c t).trans (out_last m c t h7)
  have h2 : ∀ z : S1x8x128.Idx, k0_pay2 (F := Ideal) ((outsAt0 m c t.val t.isLt).2) z = sampleMI m c (t.val / 8) := fun z =>
    (KFinal.finalize_apply ((outsAt0 m c t.val t.isLt).2) z).trans
      (congrArg mi (funext fun i => funext fun j => hist_last m c t h7 i j))
  exact (congrFun h1 ((cfg0.win 2).xinj (grid0.coords t) y)).trans (h2 _)

/-- An element of a window's block sits in the array where the array's view sends its place in the block's rectangle. -/
theorem blk_emb {G : Pipeline.Grid} (w : Pipeline.Window sig G) (t : Fin G.N) (y : (w.xblock (G.coords t)).Idx) :
    (w.blk t).view.emb y = w.arr.view.emb ((w.rect t).emb y) := rfl

/-- The sample coordinate of every element of the output block of point t is t / 8. -/
theorem emb_sample (t : Fin cfg0.N) (y : (win0_2.xblock (grid0.coords t)).Idx) :
    (((win0_2.blk t).view.emb y) 0 : ℕ) = t.val / 8 := by
  have hb := blk_emb win0_2 t y
  have h := Pipeline.Window.rect_emb_val win0_2 t y 0
  have hy : (y 0 : ℕ) < 1 := lt_of_lt_of_eq (y 0).isLt (win2_facts t).2.2.2.1
  have hsz : win0_2.size 0 = 1 := rfl
  rw [(win2_facts t).1, hsz] at h
  rw [hb]
  show (((win0_2.rect t).emb y) 0 : ℕ) = t.val / 8
  rw [h]; omega

/-- The array read through the block of point t: the mutual information of sample t / 8 at every position. -/
theorem read_out (c : Dev nD) (t : Fin cfg0.N) (y : ((cfg0.win 2).xblock (grid0.coords t)).Idx) :
    ((cfg0.win 2).blk t).view.read (Elt Ideal) (outArr m c) y = sampleMI m c (t.val / 8) := by
  rw [View.read_apply, cast_eq]
  exact congrArg (sampleMI m c) (emb_sample t y)

/-- What a sample's last point writes back is its block of that array. -/
theorem flushed_eq (c : Dev nD) (t : Fin cfg0.N) (hf : (cfg0.win 2).flush t = true) :
    (dats m 0 c).flushed 2 t = ((cfg0.win 2).blk t).view.read (Elt Ideal) (outArr m c) :=
  funext fun y => (flushed_val m c t ((flush0_2 t).mp hf) y).trans (read_out m c t y).symm

/-- Every position of the output array lies in the block that its sample's last point writes back. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : ℕ) < 32 := (i 0).isLt
  have h1 : (i 1 : ℕ) < 8 := (i 1).isLt
  have h2 : (i 2 : ℕ) < 128 := (i 2).isLt
  have hlt : 8 * (i 0 : ℕ) + 7 < cfg0.N := by rw [N256]; omega
  refine ⟨⟨8 * (i 0 : ℕ) + 7, hlt⟩, (flush0_2 _).mpr (by show (8 * (i 0 : ℕ) + 7) % 8 = 7; omega), ?_⟩
  show i ∈ ((View.whole main_v0).slice (win0_2.rect ⟨8 * (i 0 : ℕ) + 7, hlt⟩)).set
  rw [View.set_slice_whole, Rect.mem_set_unit]
  intro a
  obtain ⟨f0, f1, f2, g0, g1, g2⟩ := win2_facts ⟨8 * (i 0 : ℕ) + 7, hlt⟩
  have s0 : win0_2.size 0 = 1 := rfl
  have s1 : win0_2.size 1 = 8 := rfl
  have s2 : win0_2.size 2 = 128 := rfl
  match a with
  | ⟨0, _⟩ =>
    show win0_2.index ⟨8 * (i 0 : ℕ) + 7, hlt⟩ 0 * win0_2.size 0 ≤ (i 0 : ℕ)
      ∧ (i 0 : ℕ) < win0_2.index ⟨8 * (i 0 : ℕ) + 7, hlt⟩ 0 * win0_2.size 0 + win0_2.xsize (grid0.coords ⟨8 * (i 0 : ℕ) + 7, hlt⟩) 0
    rw [f0, g0, s0]
    show (8 * (i 0 : ℕ) + 7) / 8 * 1 ≤ (i 0 : ℕ) ∧ (i 0 : ℕ) < (8 * (i 0 : ℕ) + 7) / 8 * 1 + 1
    omega
  | ⟨1, _⟩ =>
    show win0_2.index ⟨8 * (i 0 : ℕ) + 7, hlt⟩ 1 * win0_2.size 1 ≤ (i 1 : ℕ)
      ∧ (i 1 : ℕ) < win0_2.index ⟨8 * (i 0 : ℕ) + 7, hlt⟩ 1 * win0_2.size 1 + win0_2.xsize (grid0.coords ⟨8 * (i 0 : ℕ) + 7, hlt⟩) 1
    rw [f1, g1, s1]; omega
  | ⟨2, _⟩ =>
    show win0_2.index ⟨8 * (i 0 : ℕ) + 7, hlt⟩ 2 * win0_2.size 2 ≤ (i 2 : ℕ)
      ∧ (i 2 : ℕ) < win0_2.index ⟨8 * (i 0 : ℕ) + 7, hlt⟩ 2 * win0_2.size 2 + win0_2.xsize (grid0.coords ⟨8 * (i 0 : ℕ) + 7, hlt⟩) 2
    rw [f2, g2, s2]; omega

/-- So the output array ends holding each sample's mutual information over its block. -/
theorem final_out (c : Dev nD) : (dats m 0 c).arrAt 2 cfg0.N = outArr m c :=
  (dats m 0 c).arrAt_eq_of_cover 2 (outArr m c) (flushed_eq m c) (cover c)

/-- Position (b, 0, 0) of that array is sample b's mutual information. -/
theorem outArr_apply (c : Dev nD) (b : Fin 32) : outArr m c (ix3 b 0 0) = mi (hist (imgX m c) (imgY m c) b) := by
  show sampleMI m c b.val = _
  unfold sampleMI
  exact congrArg (fun q => mi (hist (imgX m c) (imgY m c) q)) (Fin.ext (Nat.mod_eq_of_lt b.isLt))

/-- The program's result buffer is no array of the pipeline. -/
theorem v5_rest : main_v5 ∈ Pipeline.restRefs sig (cfgs 0).spec :=
  Pipeline.mem_restRefs_of main_v5 rfl (fun w => by fin_cases w <;> decide)

/-- The idealized kernel program runs, ends with minus the mean mutual information in its result, and leaves its
    arguments as they were. -/
theorem run : θ_run defs (onTc (τ := τ) (main (F := Ideal))) ⟨m, fun _ => 0, ρ⟩ fun r => ∀ c : Dev nD,
      r.2.mem ((c.tc : Thread nD τ).loc main_v5) = (fun (_ : S_.Idx) => result (imgX m c) (imgY m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v5 v5_rest).trans ((KTail.tail_apply m c (outArr m c) (final_out m c)).trans (by
        funext _
        unfold result
        exact congrArg (fun s => -(Ideal.div s (Ideal.ofBits .f32 0x42000000#32)))
          (Finset.sum_congr rfl fun b _ => outArr_apply m c b))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue
end
-- ==== Proof.lean ====
/-
  Mutual information of two image batches from 32-bin joint histograms: the kernel against its jnp reference.

  Both programs map each pixel pair (x, y) of a sample to bins clamp (⌊32 (x + 1) / 2⌋, 0, 31) of the two images,
  count the pairs whose scaled coordinates both lie in [0, 1], normalise the 32 x 32 counts of each of the 32 samples
  to a probability table p, take Σ p log (p / (px py)) over the cells with p > 0, and return minus the mean over the
  samples. The kernel builds each sample's table as a sum, over 8 grid points of 128 rows of 512 pixels, of products
  of one-hot matrices contracted over the row; the reference scatters every pixel's weight onto the flat bin index
  1024 b + 32 i + j. Over the extended reals these are the same finite sum of zeros and ones in two orders, the
  kernel's (x + 1) · 0.5 is the reference's (x + 1) / 2, and the rest of the two programs is the same formula.

  The three frames are the generated ones (the reference's is its run with the result dropped); the idealization
  rewrote nothing, so `preserves` is trivial; `algebraic` names the common result (Proof/Spec.lean: `Cert.Hist.result`)
  and joins the kernel program's run (Proof/KValue.lean) to the reference's (Proof/RefValue.lean).
-/
import proofs.«107822_j38654705664143_1_alg».proof.Defs
import proofs.«107822_j38654705664143_1_alg».proof.Proof.Gen.Kernel
import proofs.«107822_j38654705664143_1_alg».proof.Proof.Gen.Kernel.Skeleton
import proofs.«107822_j38654705664143_1_alg».proof.Proof.Gen.Kernel.Launch
import proofs.«107822_j38654705664143_1_alg».proof.Proof.Gen.Kernel.Points
import proofs.«107822_j38654705664143_1_alg».proof.Proof.Gen.Kernel.Frame
import proofs.«107822_j38654705664143_1_alg».proof.Proof.Gen.KernelIdeal
import proofs.«107822_j38654705664143_1_alg».proof.Proof.Gen.KernelIdeal.Skeleton
import proofs.«107822_j38654705664143_1_alg».proof.Proof.Gen.KernelIdeal.Launch
import proofs.«107822_j38654705664143_1_alg».proof.Proof.Gen.KernelIdeal.Points
import proofs.«107822_j38654705664143_1_alg».proof.Proof.Gen.KernelIdeal.Frame
import proofs.«107822_j38654705664143_1_alg».proof.Proof.Gen.ReferenceIdeal
import proofs.«107822_j38654705664143_1_alg».proof.Proof.Gen.Pre_finite_inputs
import proofs.«107822_j38654705664143_1_alg».proof.Proof.RefRun
import proofs.«107822_j38654705664143_1_alg».proof.Proof.RefValue
import proofs.«107822_j38654705664143_1_alg».proof.Proof.KValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two image batches both idealized programs end with minus the mean mutual
    information of the batches' joint histograms in their result. -/
theorem algebraic : Cert.algebraic_KernelIdeal_ReferenceIdeal := by
  intro m ρ m' ρ' _ hagree
  refine ⟨fun c => (fun (_ : Cert.KernelIdeal.S_.Idx) =>
      Cert.Hist.result (Cert.KernelIdeal.KHist.imgX m c) (Cert.KernelIdeal.KHist.imgY m c)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
